-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x312500 : Shape := ⟨2, ![2, 312500]⟩
abbrev S256x256 : Shape := ⟨2, ![256, 256]⟩
abbrev S256 : Shape := ⟨1, ![256]⟩
abbrev S_ : Shape := ⟨0, ![]⟩
abbrev S1x312500 : Shape := ⟨2, ![1, 312500]⟩
abbrev S312500 : Shape := ⟨1, ![312500]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S2x312500_S1x312500_0_0 : S2x312500.Slices ![0, 0] S1x312500
  shapeCasts_S1x312500_S312500 : S1x312500.ShapeCasts S312500
  bcast_S_S312500 : S_.BroadcastsInDim S312500 (![] : Fin 0 → Fin S312500.rank)
  reducesTo_S312500_S_d0 : S312500.ReducesTo [0] S_

variable [Facts]

def fn_part2 {F : FTy → Type} [FloatOps F] (main_arg1 : IVec S2x312500 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : IVec S1x312500 32 := (extractStridedSlice S1x312500 ![0, 0] · slices_S2x312500_S1x312500_0_0) main_arg1
  let main_v40 : IVec S312500 32 := shapeCast S312500 main_v39 shapeCasts_S1x312500_S312500
  let main_c_14 : IVec S_ 32 := constantI S_ 32 4294917296#32
  let main_v41 : IVec S312500 32 := broadcastInDim S312500 ![] bcast_S_S312500 main_c_14
  let main_v42 : IVec S312500 1 := cmpi .sge main_v40 main_v41
  let main_v43 : IVec S1x312500 32 := (extractStridedSlice S1x312500 ![0, 0] · slices_S2x312500_S1x312500_0_0) main_arg1
  let main_v44 : IVec S312500 32 := shapeCast S312500 main_v43 shapeCasts_S1x312500_S312500
  let main_c_15 : IVec S_ 32 := constantI S_ 32 50000#32
  let main_v45 : IVec S312500 32 := broadcastInDim S312500 ![] bcast_S_S312500 main_c_15
  let main_v46 : IVec S312500 1 := cmpi .slt main_v44 main_v45
  let main_v47 : IVec S312500 1 := andi main_v42 main_v46
  let main_c_16 : IVec S_ 1 := constantI S_ 1 1#1
  let main_v48 : IVec S_ 1 := (fun x v => Host.reduce IntOp.andi x v reducesTo_S312500_S_d0 h_S_) main_v47 main_c_16
  let main_v49 : IVec S_ 1 := andi main_v38 main_v48
  main_v49

def fn_part1 {F : FTy → Type} [FloatOps F] (main_arg1 : IVec S2x312500 32) (main_arg5 : FVec F S256 .f32) (main_arg6 : FVec F S256 .f32) (main_arg7 : FVec F S256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_v33

def fn {F : FTy → Type} [FloatOps F] (main_arg0 : FVec F S50000x256 .f32) (main_arg1 : IVec S2x312500 32) (main_arg2 : FVec F S256x256 .f32) (main_arg3 : FVec F S256 .f32) (main_arg4 : FVec F S256x256 .f32) (main_arg5 : FVec F S256 .f32) (main_arg6 : FVec F S256 .f32) (main_arg7 : FVec F S256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_v13 main_v16
-- ==== Kernel.lean ====
abbrev S50000x256 : Shape := ⟨2, ![50000, 256]⟩
abbrev S2x312500 : Shape := ⟨2, ![2, 312500]⟩
abbrev S256x256 : Shape := ⟨2, ![256, 256]⟩
abbrev S256 : Shape := ⟨1, ![256]⟩
abbrev S1x312500 : Shape := ⟨2, ![1, 312500]⟩
abbrev S312500 : Shape := ⟨1, ![312500]⟩
abbrev S5000x256 : Shape := ⟨2, ![5000, 256]⟩
abbrev S_ : Shape := ⟨0, ![]⟩
abbrev S312500x1 : Shape := ⟨2, ![312500, 1]⟩
abbrev S1 : Shape := ⟨1, ![1]⟩
abbrev S1x1 : Shape := ⟨2, ![1, 1]⟩
abbrev S312500x256 : Shape := ⟨2, ![312500, 256]⟩
abbrev S1x256 : Shape := ⟨2, ![1, 256]⟩
abbrev S2000x256 : Shape := ⟨2, ![2000, 256]⟩

abbrev nBuf : Space → Nat
  | .hbm => 91
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x312500, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x312500, .i32⟩
  | .hbm, ⟨10, _⟩ => ⟨S312500, .i32⟩
  | .hbm, ⟨11, _⟩ => ⟨S1x312500, .i32⟩
  | .hbm, ⟨12, _⟩ => ⟨S312500, .i32⟩
  | .hbm, ⟨13, _⟩ => ⟨S50000x256, .f32⟩
  | .hbm, ⟨14, _⟩ => ⟨S_, .i32⟩
  | .hbm, ⟨15, _⟩ => ⟨S312500, .i32⟩
  | .hbm, ⟨16, _⟩ => ⟨S312500, .i1⟩
  | .hbm, ⟨17, _⟩ => ⟨S_, .i32⟩
  | .hbm, ⟨18, _⟩ => ⟨S312500, .i32⟩
  | .hbm, ⟨19, _⟩ => ⟨S312500, .i32⟩
  | .hbm, ⟨20, _⟩ => ⟨S312500, .i32⟩
  | .hbm, ⟨21, _⟩ => ⟨S312500x1, .i32⟩
  | .hbm, ⟨22, _⟩ => ⟨S1, .i32⟩
  | .hbm, ⟨23, _⟩ => ⟨S_, .i32⟩
  | .hbm, ⟨24, _⟩ => ⟨S312500x1, .i32⟩
  | .hbm, ⟨25, _⟩ => ⟨S312500x1, .i1⟩
  | .hbm, ⟨26, _⟩ => ⟨S1x1, .i32⟩
  | .hbm, ⟨27, _⟩ => ⟨S312500x1, .i32⟩
  | .hbm, ⟨28, _⟩ => ⟨S312500x1, .i1⟩
  | .hbm, ⟨29, _⟩ => ⟨S312500x1, .i1⟩
  | .hbm, ⟨30, _⟩ => ⟨S_, .i1⟩
  | .hbm, ⟨31, _⟩ => ⟨S312500, .i1⟩
  | .hbm, ⟨32, _⟩ => ⟨S312500x256, .f32⟩
  | .hbm, ⟨33, _⟩ => ⟨S312500x256, .i1⟩
  | .hbm, ⟨34, _⟩ => ⟨S_, .f32⟩
  | .hbm, ⟨35, _⟩ => ⟨S312500x256, .f32⟩
  | .hbm, ⟨36, _⟩ => ⟨S312500x256, .f32⟩
  | .hbm, ⟨37, _⟩ => ⟨S_, .f32⟩
  | .hbm, ⟨38, _⟩ => ⟨S50000x256, .f32⟩
  | .hbm, ⟨39, _⟩ => ⟨S312500x1, .i32⟩
  | .hbm, ⟨40, _⟩ => ⟨S50000x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S_, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S312500, .i32⟩
  | .hbm, ⟨64, _⟩ => ⟨S312500, .i1⟩
  | .hbm, ⟨65, _⟩ => ⟨S_, .i32⟩
  | .hbm, ⟨66, _⟩ => ⟨S312500, .i32⟩
  | .hbm, ⟨67, _⟩ => ⟨S312500, .i32⟩
  | .hbm, ⟨68, _⟩ => ⟨S312500, .i32⟩
  | .hbm, ⟨69, _⟩ => ⟨S312500x1, .i32⟩
  | .hbm, ⟨70, _⟩ => ⟨S1, .i32⟩
  | .hbm, ⟨71, _⟩ => ⟨S_, .i32⟩
  | .hbm, ⟨72, _⟩ => ⟨S312500x1, .i32⟩
  | .hbm, ⟨73, _⟩ => ⟨S312500x1, .i1⟩
  | .hbm, ⟨74, _⟩ => ⟨S1x1, .i32⟩
  | .hbm, ⟨75, _⟩ => ⟨S312500x1, .i32⟩
  | .hbm, ⟨76, _⟩ => ⟨S312500x1, .i1⟩
  | .hbm, ⟨77, _⟩ => ⟨S312500x1, .i1⟩
  | .hbm, ⟨78, _⟩ => ⟨S_, .i1⟩
  | .hbm, ⟨79, _⟩ => ⟨S312500, .i1⟩
  | .hbm, ⟨80, _⟩ => ⟨S312500x256, .f32⟩
  | .hbm, ⟨81, _⟩ => ⟨S312500x256, .i1⟩
  | .hbm, ⟨82, _⟩ => ⟨S_, .f32⟩
  | .hbm, ⟨83, _⟩ => ⟨S312500x256, .f32⟩
  | .hbm, ⟨84, _⟩ => ⟨S312500x256, .f32⟩
  | .hbm, ⟨85, _⟩ => ⟨S_, .f32⟩
  | .hbm, ⟨86, _⟩ => ⟨S50000x256, .f32⟩
  | .hbm, ⟨87, _⟩ => ⟨S312500x1, .i32⟩
  | .hbm, ⟨88, _⟩ => ⟨S50000x256, .f32⟩
  | .hbm, ⟨89, _⟩ => ⟨S1x256, .f32⟩
  | .hbm, ⟨90, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S5000x256, .f32⟩
  | .local _ .vmem, ⟨24, _⟩ => ⟨S5000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_0 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v27 : Ref sig .tc := ⟨.hbm, 84, rfl⟩
abbrev main_cst_3 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg5_0 : Ref sig .tc := ⟨.vmem, 18, rfl⟩
abbrev cc3_stg5_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem4_0 : DmaSem sig := 17
abbrev cc3_sem5_0 : DmaSem sig := 18
abbrev cc3_sem5_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x312500_S1x312500_0_0 : S2x312500.Slices ![0, 0] S1x312500
  shapeCasts_S1x312500_S312500 : S1x312500.ShapeCasts S312500
  slices_S2x312500_S1x312500_1_0 : S2x312500.Slices ![1, 0] S1x312500
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S312500 : S_.BroadcastsInDim S312500 (![] : Fin 0 → Fin S312500.rank)
  bcast_S312500_S312500x1_0 : S312500.BroadcastsInDim S312500x1 (![0] : Fin 1 → Fin S312500x1.rank)
  bcast_S_S312500x1 : S_.BroadcastsInDim S312500x1 (![] : Fin 0 → Fin S312500x1.rank)
  bcast_S1_S1x1_1 : S1.BroadcastsInDim S1x1 (![1] : Fin 1 → Fin S1x1.rank)
  bcast_S1x1_S312500x1_0_1 : S1x1.BroadcastsInDim S312500x1 (![0, 1] : Fin 2 → Fin S312500x1.rank)
  reducesTo_S312500x1_S312500_d1 : S312500x1.ReducesTo [1] S312500
  h_S_ : 0 < S_.numel
  bcast_S312500_S312500x256_0 : S312500.BroadcastsInDim S312500x256 (![0] : Fin 1 → Fin S312500x256.rank)
  bcast_S_S312500x256 : S_.BroadcastsInDim S312500x256 (![] : Fin 0 → Fin S312500x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S5000x256_S5000x256 : S5000x256.ShapeCasts S5000x256
  reduces_S5000x256_S256 : S5000x256.Reduces [0] S256
  bcast_S_S1x256 : S_.BroadcastsInDim S1x256 (![] : Fin 0 → Fin S1x256.rank)
  broadcasts_S1x256_S5000x256 : S1x256.Broadcasts S5000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  dot_S5000x256_S256x256_S5000x256_1_0_0_1_n_n_wf : DotDims.WF S5000x256 S256x256 S5000x256 [1] [0] [0] [1] [] []
  gather_S50000x256_S312500x1_S312500x256_1_0_n_n_0_1_1256_wf : GatherDims.WF S50000x256 S312500x1 S312500x256 [1] [0] [] [0] [] 1 ![1, 256]
  scatter_S50000x256_S312500x1_S312500x256_1_0_0_1_wf : ScatterDims.WF S50000x256 S312500x1 S312500x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S312500x1_S312500x256_1_0_n_n_0_1_1256 : GatherDims S50000x256 S312500x1 S312500x256 where
  offsetDims := [1]
  collapsedSliceDims := [0]
  operandBatchingDims := []
  startIndicesBatchingDims := []
  startIndexMap := [0]
  indexVectorDim := 1
  sliceSizes := ![1, 256]
  wf := gather_S50000x256_S312500x1_S312500x256_1_0_n_n_0_1_1256_wf
def scatter_S50000x256_S312500x1_S312500x256_1_0_0_1 : ScatterDims S50000x256 S312500x1 S312500x256 where
  updateWindowDims := [1]
  insertedWindowDims := [0]
  scatterDimsToOperandDims := [0]
  indexVectorDim := 1
  wf := scatter_S50000x256_S312500x1_S312500x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x256.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v8) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v25) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v30) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x312500 : Shape := ⟨2, ![2, 312500]⟩
abbrev S256x256 : Shape := ⟨2, ![256, 256]⟩
abbrev S256 : Shape := ⟨1, ![256]⟩
abbrev S1x312500 : Shape := ⟨2, ![1, 312500]⟩
abbrev S312500 : Shape := ⟨1, ![312500]⟩
abbrev S_ : Shape := ⟨0, ![]⟩
abbrev S312500x1 : Shape := ⟨2, ![312500, 1]⟩
abbrev S312500x256 : Shape := ⟨2, ![312500, 256]⟩
abbrev S1x256 : Shape := ⟨2, ![1, 256]⟩

abbrev nBuf : Space → Nat
  | .hbm => 82
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x312500, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S50000x256, .f32⟩
  | .hbm, ⟨10, _⟩ => ⟨S1x312500, .i32⟩
  | .hbm, ⟨11, _⟩ => ⟨S312500, .i32⟩
  | .hbm, ⟨12, _⟩ => ⟨S_, .i32⟩
  | .hbm, ⟨13, _⟩ => ⟨S312500, .i32⟩
  | .hbm, ⟨14, _⟩ => ⟨S312500, .i1⟩
  | .hbm, ⟨15, _⟩ => ⟨S_, .i32⟩
  | .hbm, ⟨16, _⟩ => ⟨S312500, .i32⟩
  | .hbm, ⟨17, _⟩ => ⟨S312500, .i32⟩
  | .hbm, ⟨18, _⟩ => ⟨S312500, .i32⟩
  | .hbm, ⟨19, _⟩ => ⟨S312500x1, .i32⟩
  | .hbm, ⟨20, _⟩ => ⟨S312500x256, .f32⟩
  | .hbm, ⟨21, _⟩ => ⟨S1x312500, .i32⟩
  | .hbm, ⟨22, _⟩ => ⟨S312500, .i32⟩
  | .hbm, ⟨23, _⟩ => ⟨S_, .f32⟩
  | .hbm, ⟨24, _⟩ => ⟨S50000x256, .f32⟩
  | .hbm, ⟨25, _⟩ => ⟨S312500x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S_, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x312500, .i32⟩
  | .hbm, ⟨62, _⟩ => ⟨S312500, .i32⟩
  | .hbm, ⟨63, _⟩ => ⟨S_, .i32⟩
  | .hbm, ⟨64, _⟩ => ⟨S312500, .i32⟩
  | .hbm, ⟨65, _⟩ => ⟨S312500, .i1⟩
  | .hbm, ⟨66, _⟩ => ⟨S_, .i32⟩
  | .hbm, ⟨67, _⟩ => ⟨S312500, .i32⟩
  | .hbm, ⟨68, _⟩ => ⟨S312500, .i32⟩
  | .hbm, ⟨69, _⟩ => ⟨S312500, .i32⟩
  | .hbm, ⟨70, _⟩ => ⟨S312500x1, .i32⟩
  | .hbm, ⟨71, _⟩ => ⟨S312500x256, .f32⟩
  | .hbm, ⟨72, _⟩ => ⟨S1x312500, .i32⟩
  | .hbm, ⟨73, _⟩ => ⟨S312500, .i32⟩
  | .hbm, ⟨74, _⟩ => ⟨S_, .f32⟩
  | .hbm, ⟨75, _⟩ => ⟨S50000x256, .f32⟩
  | .hbm, ⟨76, _⟩ => ⟨S312500x1, .i32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x312500_S1x312500_0_0 : S2x312500.Slices ![0, 0] S1x312500
  shapeCasts_S1x312500_S312500 : S1x312500.ShapeCasts S312500
  bcast_S_S312500 : S_.BroadcastsInDim S312500 (![] : Fin 0 → Fin S312500.rank)
  bcast_S312500_S312500x1_0 : S312500.BroadcastsInDim S312500x1 (![0] : Fin 1 → Fin S312500x1.rank)
  slices_S2x312500_S1x312500_1_0 : S2x312500.Slices ![1, 0] S1x312500
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S1x256 : S_.BroadcastsInDim S1x256 (![] : Fin 0 → Fin S1x256.rank)
  dot_S50000x256_S256x256_S50000x256_1_0_0_1_n_n_wf : DotDims.WF S50000x256 S256x256 S50000x256 [1] [0] [0] [1] [] []
  gather_S50000x256_S312500x1_S312500x256_1_0_n_n_0_1_1256_wf : GatherDims.WF S50000x256 S312500x1 S312500x256 [1] [0] [] [0] [] 1 ![1, 256]
  scatter_S50000x256_S312500x1_S312500x256_1_0_0_1_wf : ScatterDims.WF S50000x256 S312500x1 S312500x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S312500x1_S312500x256_1_0_n_n_0_1_1256 : GatherDims S50000x256 S312500x1 S312500x256 where
  offsetDims := [1]
  collapsedSliceDims := [0]
  operandBatchingDims := []
  startIndicesBatchingDims := []
  startIndexMap := [0]
  indexVectorDim := 1
  sliceSizes := ![1, 256]
  wf := gather_S50000x256_S312500x1_S312500x256_1_0_n_n_0_1_1256_wf
def scatter_S50000x256_S312500x1_S312500x256_1_0_0_1 : ScatterDims S50000x256 S312500x1 S312500x256 where
  updateWindowDims := [1]
  insertedWindowDims := [0]
  scatterDimsToOperandDims := [0]
  indexVectorDim := 1
  wf := scatter_S50000x256_S312500x1_S312500x256_1_0_0_1_wf

class Facts : Prop extends Facts₀ where

variable [Facts]
-- ==== Proof.Spec.lean ====
/-
  The mathematics both programs compute, stated once over the extended reals, with no program imported.

  A two-layer graph convolution over N = 50000 nodes with D = 256 features and E = 312500 directed edges:
  a layer multiplies the node features by a D×D matrix, gathers the product's rows at the edges' source nodes
  and adds them into the edges' target nodes.  Between the layers the columns are normalised over the nodes
  (mean scaled by a learnt factor, variance, reciprocal square root), scaled, shifted and passed through tanh;
  after the second layer a bias is added and tanh applied.

  Here are: the shapes; the index-by-index functions the six pipelined regions of the kernel compute
  (lin, colsum, colsumsq, norm, biasTanh); the host operations around them over the same operations
  (source and target words of the edge list, the wrapped source index, the gather that fills a row read out of
  range, the scatter-add); and the two whole compositions kerF and refF that the rest of the proof
  shows equal when every source index names a node.
-/
import Idealize.ShloMosaic.PureOps
import Idealize.ShloMosaic.Lib.ValueIdx

noncomputable section

namespace Cert.Gcn

open Idealize.ShloMosaic Idealize.ShloMosaic.ValueIdx

/-! ## Shapes -/

abbrev TN : Shape := ⟨2, ![50000, 256]⟩
abbrev TE2 : Shape := ⟨2, ![2, 312500]⟩
abbrev TD : Shape := ⟨2, ![256, 256]⟩
abbrev TV : Shape := ⟨1, ![256]⟩
abbrev TE1 : Shape := ⟨2, ![1, 312500]⟩
abbrev TE : Shape := ⟨1, ![312500]⟩
abbrev T0 : Shape := ⟨0, ![]⟩
abbrev TEc : Shape := ⟨2, ![312500, 1]⟩
abbrev TM : Shape := ⟨2, ![312500, 256]⟩
abbrev TR : Shape := ⟨2, ![1, 256]⟩
abbrev T1 : Shape := ⟨1, ![1]⟩
abbrev T11 : Shape := ⟨2, ![1, 1]⟩

/-! ## The shape relations the host operations take -/

theorem slices0 : TE2.Slices ![0, 0] TE1 := by decide
theorem slices1 : TE2.Slices ![1, 0] TE1 := by decide
theorem casts_E1_E : TE1.ShapeCasts TE := by decide
theorem casts_V_R : TV.ShapeCasts TR := by decide
theorem bc_0_E : T0.BroadcastsInDim TE (![] : Fin 0 → Fin TE.rank) := by decide
theorem bc_E_Ec : TE.BroadcastsInDim TEc (![0] : Fin 1 → Fin TEc.rank) := by decide
theorem bc_0_N : T0.BroadcastsInDim TN (![] : Fin 0 → Fin TN.rank) := by decide
theorem bc_V_R : TV.BroadcastsInDim TR (![1] : Fin 1 → Fin TR.rank) := by decide
theorem bc_R_N : TR.BroadcastsInDim TN (![0, 1] : Fin 2 → Fin TN.rank) := by decide
theorem bc_0_R : T0.BroadcastsInDim TR (![] : Fin 0 → Fin TR.rank) := by decide
theorem bc_0_Ec : T0.BroadcastsInDim TEc (![] : Fin 0 → Fin TEc.rank) := by decide
theorem bc_1_11 : T1.BroadcastsInDim T11 (![1] : Fin 1 → Fin T11.rank) := by decide
theorem bc_11_Ec : T11.BroadcastsInDim TEc (![0, 1] : Fin 2 → Fin TEc.rank) := by decide
theorem bc_E_M : TE.BroadcastsInDim TM (![0] : Fin 1 → Fin TM.rank) := by decide
theorem bc_0_M : T0.BroadcastsInDim TM (![] : Fin 0 → Fin TM.rank) := by decide
theorem red_N_V : TN.ReducesTo [0] TV := by decide
theorem red_Ec_E : TEc.ReducesTo [1] TE := by decide
theorem h0 : 0 < T0.numel := by decide
theorem dot_wf : DotDims.WF TN TD TN [1] [0] [0] [1] [] [] := by decide
theorem gather_wf : GatherDims.WF TN TEc TM [1] [0] [] [0] [] 1 ![1, 256] := by decide
theorem scatter_wf : ScatterDims.WF TN TEc TM [1] [0] [0] 1 := by decide

def dotD : DotDims TN TD TN where
  lhsContracting := [1]
  rhsContracting := [0]
  lhsNonContracting := [0]
  rhsNonContracting := [1]
  lhsBatch := []
  rhsBatch := []
  wf := dot_wf
def gatherD : GatherDims TN TEc TM where
  offsetDims := [1]
  collapsedSliceDims := [0]
  operandBatchingDims := []
  startIndicesBatchingDims := []
  startIndexMap := [0]
  indexVectorDim := 1
  sliceSizes := ![1, 256]
  wf := gather_wf
def scatterD : ScatterDims TN TEc TM where
  updateWindowDims := [1]
  insertedWindowDims := [0]
  scatterDimsToOperandDims := [0]
  indexVectorDim := 1
  wf := scatter_wf

/-! ## What the pipelined regions compute, index by index -/

/-- A row block times the matrix: entry (r, j) is the sum over k of x(r, k) · w(k, j). -/
def lin (x : FVec Ideal TN .f32) (w : FVec Ideal TD .f32) : FVec Ideal TN .f32 :=
  fun i => ∑ k : Fin 256, x (ix2 (i 0) k) * w (ix2 k (i 1))

/-- The column sums over all nodes, as a 1×D row. -/
def colsum (a : FVec Ideal TN .f32) : FVec Ideal TR .f32 :=
  fun j => ∑ r : Fin 50000, a (ix2 r (j 1))

/-- The column sums of the squares of the entries shifted by a row. -/
def colsumsq (a : FVec Ideal TN .f32) (cc : FVec Ideal TR .f32) : FVec Ideal TR .f32 :=
  fun j => ∑ r : Fin 50000, (a (ix2 r (j 1)) + cc (ix2 0 (j 1))) * (a (ix2 r (j 1)) + cc (ix2 0 (j 1)))

/-- Shift by a row, scale by a row, scale by a row, shift by a row, tanh. -/
def norm (a : FVec Ideal TN .f32) (cc inv w b : FVec Ideal TR .f32) : FVec Ideal TN .f32 :=
  fun i => Ideal.tanh (((a i + cc (ix2 0 (i 1))) * inv (ix2 0 (i 1))) * w (ix2 0 (i 1)) + b (ix2 0 (i 1)))

/-- Shift by a row, tanh. -/
def biasTanh (a : FVec Ideal TN .f32) (b : FVec Ideal TR .f32) : FVec Ideal TN .f32 :=
  fun i => Ideal.tanh (a i + b (ix2 0 (i 1)))

/-! ## The host operations around them, in the operations of the host dialect -/

/-- Row 0 of the edge list: the source node of every edge. -/
def srcOf (e : IVec TE2 32) : IVec TE 32 := shapeCast TE (extractStridedSlice TE1 ![0, 0] e slices0) casts_E1_E
/-- Row 1 of the edge list: the target node of every edge. -/
def tgtOf (e : IVec TE2 32) : IVec TE 32 := shapeCast TE (extractStridedSlice TE1 ![1, 0] e slices1) casts_E1_E

/-- A negative index counts from the end: add N to it. -/
def wrapIdx (s : IVec TE 32) : IVec TE 32 :=
  select (cmpi .slt s (broadcastInDim TE ![] bc_0_E (constantI T0 32 0#32)))
    (addi s (broadcastInDim TE ![] bc_0_E (constantI T0 32 50000#32))) s

/-- The index words as a column, the form gather and scatter read. -/
def col (s : IVec TE 32) : IVec TEc 32 := broadcastInDim TEc ![0] bc_E_Ec s

/-- Per edge: is the wrapped source index a node, 0 ≤ · ≤ N − 1 ? -/
def inRangeMask (s : IVec TE 32) : IVec TE 1 :=
  Host.reduce IntOp.andi
    (andi (cmpi .sge (col (wrapIdx s)) (broadcastInDim TEc ![] bc_0_Ec (constantI T0 32 0#32)))
      (cmpi .sle (col (wrapIdx s)) (broadcastInDim TEc ![0, 1] bc_11_Ec (broadcastInDim T11 ![1] bc_1_11 (constantI T1 32 49999#32)))))
    (constantI T0 1 1#1) red_Ec_E h0

/-- The rows of h at the edges' sources, clamped into range (the plain gather). -/
def gatherRows (h : FVec Ideal TN .f32) (s : IVec TE 32) : FVec Ideal TM .f32 :=
  Host.gather gatherD h (col (wrapIdx s))

/-- The same with a row read out of range replaced by the fill pattern. -/
def takeFill (h : FVec Ideal TN .f32) (s : IVec TE 32) : FVec Ideal TM .f32 :=
  select (broadcastInDim TM ![0] bc_E_M (inRangeMask s)) (gatherRows h s)
    (broadcastInDim TM ![] bc_0_M (constant (F := Ideal) T0 .f32 0x7FC00000#32))

/-- Add each edge's row into its target node's row, from zeros. -/
def scatterRows (t : IVec TE 32) (u : FVec Ideal TM .f32) : FVec Ideal TN .f32 :=
  Host.scatterAdd (F := Ideal) (φ := .f32) scatterD
    (broadcastInDim TN ![] bc_0_N (constant (F := Ideal) T0 .f32 0x00000000#32)) (col t) u

/-- A length-D vector as a 1×D row (a reshape). -/
def rowOf (v : FVec Ideal TV .f32) : FVec Ideal TR .f32 := shapeCast TR v casts_V_R
/-- A length-D vector as a 1×D row (a broadcast along a new leading axis). -/
def rowB (v : FVec Ideal TV .f32) : FVec Ideal TR .f32 := broadcastInDim TR ![1] bc_V_R v
/-- A 1×D row repeated down the N nodes. -/
def down (r : FVec Ideal TR .f32) : FVec Ideal TN .f32 := broadcastInDim TN ![0, 1] bc_R_N r
/-- A scalar pattern as a 1×D row. -/
def splatR (b : BitVec 32) : FVec Ideal TR .f32 := broadcastInDim TR ![] bc_0_R (constant (F := Ideal) T0 .f32 b)

/-- The kernel's shift row: b − (sum / N + b) · scale. -/
def shiftRow (sum b ms : FVec Ideal TR .f32) : FVec Ideal TR .f32 :=
  subf (F := Ideal) b (mulf (F := Ideal) (addf (F := Ideal) (Host.divf (F := Ideal) sum (splatR 0x47435000#32)) b) ms)

/-- The kernel's reciprocal standard deviation: rsqrt (sumsq / N + ε). -/
def invStd (sumsq : FVec Ideal TR .f32) : FVec Ideal TR .f32 :=
  Host.rsqrt (F := Ideal) (addf (F := Ideal) (Host.divf (F := Ideal) sumsq (splatR 0x47435000#32)) (splatR 0x3727C5AC#32))

/-! ## The two programs as whole functions of the arguments -/

/-- One layer as the kernel computes it, before its bias. -/
def layerK (x : FVec Ideal TN .f32) (w : FVec Ideal TD .f32) (e : IVec TE2 32) : FVec Ideal TN .f32 :=
  scatterRows (tgtOf e) (takeFill (lin x w) (srcOf e))

/-- The kernel's result. -/
def kerF (x : FVec Ideal TN .f32) (e : IVec TE2 32) (w1 : FVec Ideal TD .f32) (b1 : FVec Ideal TV .f32) (w2 : FVec Ideal TD .f32)
    (b2 gw gb gms : FVec Ideal TV .f32) : FVec Ideal TN .f32 :=
  let a1 := layerK x w1 e
  let cc := shiftRow (colsum a1) (rowOf b1) (rowOf gms)
  let z := norm a1 cc (invStd (colsumsq a1 cc)) (rowOf gw) (rowOf gb)
  biasTanh (layerK z w2 e) (rowOf b2)

/-- One layer as the reference computes it, with its bias. -/
def layerR (x : FVec Ideal TN .f32) (w : FVec Ideal TD .f32) (b : FVec Ideal TV .f32) (e : IVec TE2 32) : FVec Ideal TN .f32 :=
  addf (F := Ideal) (scatterRows (tgtOf e) (gatherRows (Host.dotGeneral (F := Ideal) dotD none x w) (srcOf e))) (down (rowB b))

/-- The column means over the nodes, as a 1×D row. -/
def meanR (y : FVec Ideal TN .f32) : FVec Ideal TR .f32 :=
  Host.divf (F := Ideal)
    (rowB (Host.reduceAdd (F := Ideal) (φ := .f32) y (constant (F := Ideal) T0 .f32 0x00000000#32) red_N_V h0))
    (splatR 0x47435000#32)

/-- The reference's result. -/
def refF (x : FVec Ideal TN .f32) (e : IVec TE2 32) (w1 : FVec Ideal TD .f32) (b1 : FVec Ideal TV .f32) (w2 : FVec Ideal TD .f32)
    (b2 gw gb gms : FVec Ideal TV .f32) : FVec Ideal TN .f32 :=
  let y := layerR x w1 b1 e
  let d := subf (F := Ideal) y (down (mulf (F := Ideal) (meanR y) (rowB gms)))
  let sd := Host.sqrt (F := Ideal) (addf (F := Ideal) (meanR (mulf (F := Ideal) d d)) (splatR 0x3727C5AC#32))
  let z := Host.tanh (F := Ideal) (addf (F := Ideal) (mulf (F := Ideal) (Host.divf (F := Ideal) d (down sd)) (down (rowB gw))) (down (rowB gb)))
  Host.tanh (F := Ideal) (layerR z w2 b2 e)

end Cert.Gcn

end
-- ==== Proof.SpecG.lean ====
/-
  The host operations of Spec.lean once more, at any instance of the float operations.

  The host operations around the pipelined regions (slices and reshapes of the edge list, the wrapped index, the
  range test, gather, fill, scatter-add, rows, the shift row, the reciprocal standard deviation, the mean) do not depend
  on what a float is; stated here over an abstract instance, and equal to Spec.lean's at the extended reals by
  unfolding.  A program's composed term is compared with these at the abstract instance, where the comparison
  is a syntactic one.
-/
import proofs.«404520_j32255204393746_1_alg».proof.Proof.Spec

noncomputable section

namespace Cert.GcnG

open Idealize.ShloMosaic Idealize.ShloMosaic.ValueIdx
open Cert.Gcn (TN TE2 TD TV TE1 TE T0 TEc TM TR T1 T11 slices0 slices1 casts_E1_E casts_V_R bc_0_E bc_E_Ec bc_0_N bc_V_R bc_R_N bc_0_R bc_0_Ec bc_1_11 bc_11_Ec bc_E_M bc_0_M red_N_V red_Ec_E h0 dotD gatherD scatterD)

variable {F : FTy → Type} [FloatOps F]

/-! ## The host operations around them, in the operations of the host dialect -/

/-- Row 0 of the edge list: the source node of every edge. -/
def srcOf (e : IVec TE2 32) : IVec TE 32 := shapeCast TE (extractStridedSlice TE1 ![0, 0] e slices0) casts_E1_E
/-- Row 1 of the edge list: the target node of every edge. -/
def tgtOf (e : IVec TE2 32) : IVec TE 32 := shapeCast TE (extractStridedSlice TE1 ![1, 0] e slices1) casts_E1_E

/-- A negative index counts from the end: add N to it. -/
def wrapIdx (s : IVec TE 32) : IVec TE 32 :=
  select (cmpi .slt s (broadcastInDim TE ![] bc_0_E (constantI T0 32 0#32)))
    (addi s (broadcastInDim TE ![] bc_0_E (constantI T0 32 50000#32))) s

/-- The index words as a column, the form gather and scatter read. -/
def col (s : IVec TE 32) : IVec TEc 32 := broadcastInDim TEc ![0] bc_E_Ec s

/-- Per edge: is the wrapped source index a node, 0 ≤ · ≤ N − 1 ? -/
def inRangeMask (s : IVec TE 32) : IVec TE 1 :=
  Host.reduce IntOp.andi
    (andi (cmpi .sge (col (wrapIdx s)) (broadcastInDim TEc ![] bc_0_Ec (constantI T0 32 0#32)))
      (cmpi .sle (col (wrapIdx s)) (broadcastInDim TEc ![0, 1] bc_11_Ec (broadcastInDim T11 ![1] bc_1_11 (constantI T1 32 49999#32)))))
    (constantI T0 1 1#1) red_Ec_E h0

/-- The rows of h at the edges' sources, clamped into range (the plain gather). -/
def gatherRows (h : FVec F TN .f32) (s : IVec TE 32) : FVec F TM .f32 :=
  Host.gather gatherD h (col (wrapIdx s))

/-- The same with a row read out of range replaced by the fill pattern. -/
def takeFill (h : FVec F TN .f32) (s : IVec TE 32) : FVec F TM .f32 :=
  select (broadcastInDim TM ![0] bc_E_M (inRangeMask s)) (gatherRows h s)
    (broadcastInDim TM ![] bc_0_M (constant (F := F) T0 .f32 0x7FC00000#32))

/-- Add each edge's row into its target node's row, from zeros. -/
def scatterRows (t : IVec TE 32) (u : FVec F TM .f32) : FVec F TN .f32 :=
  Host.scatterAdd (F := F) (φ := .f32) scatterD
    (broadcastInDim TN ![] bc_0_N (constant (F := F) T0 .f32 0x00000000#32)) (col t) u

/-- A length-D vector as a 1×D row (a reshape). -/
def rowOf (v : FVec F TV .f32) : FVec F TR .f32 := shapeCast TR v casts_V_R
/-- A length-D vector as a 1×D row (a broadcast along a new leading axis). -/
def rowB (v : FVec F TV .f32) : FVec F TR .f32 := broadcastInDim TR ![1] bc_V_R v
/-- A 1×D row repeated down the N nodes. -/
def down (r : FVec F TR .f32) : FVec F TN .f32 := broadcastInDim TN ![0, 1] bc_R_N r
/-- A scalar pattern as a 1×D row. -/
def splatR (b : BitVec 32) : FVec F TR .f32 := broadcastInDim TR ![] bc_0_R (constant (F := F) T0 .f32 b)

/-- The kernel's shift row: b − (sum / N + b) · scale. -/
def shiftRow (sum b ms : FVec F TR .f32) : FVec F TR .f32 :=
  subf (F := F) b (mulf (F := F) (addf (F := F) (Host.divf (F := F) sum (splatR 0x47435000#32)) b) ms)

/-- The kernel's reciprocal standard deviation: rsqrt (sumsq / N + ε). -/
def invStd (sumsq : FVec F TR .f32) : FVec F TR .f32 :=
  Host.rsqrt (F := F) (addf (F := F) (Host.divf (F := F) sumsq (splatR 0x47435000#32)) (splatR 0x3727C5AC#32))

/-- One layer as the reference computes it, with its bias. -/
def layerR (x : FVec F TN .f32) (w : FVec F TD .f32) (b : FVec F TV .f32) (e : IVec TE2 32) : FVec F TN .f32 :=
  addf (F := F) (scatterRows (tgtOf e) (gatherRows (Host.dotGeneral (F := F) dotD none x w) (srcOf e))) (down (rowB b))

/-- The column means over the nodes, as a 1×D row. -/
def meanR (y : FVec F TN .f32) : FVec F TR .f32 :=
  Host.divf (F := F)
    (rowB (Host.reduceAdd (F := F) (φ := .f32) y (constant (F := F) T0 .f32 0x00000000#32) red_N_V h0))
    (splatR 0x47435000#32)

/-- The reference's result. -/
def refF (x : FVec F TN .f32) (e : IVec TE2 32) (w1 : FVec F TD .f32) (b1 : FVec F TV .f32) (w2 : FVec F TD .f32)
    (b2 gw gb gms : FVec F TV .f32) : FVec F TN .f32 :=
  let y := layerR x w1 b1 e
  let d := subf (F := F) y (down (mulf (F := F) (meanR y) (rowB gms)))
  let sd := Host.sqrt (F := F) (addf (F := F) (meanR (mulf (F := F) d d)) (splatR 0x3727C5AC#32))
  let z := Host.tanh (F := F) (addf (F := F) (mulf (F := F) (Host.divf (F := F) d (down sd)) (down (rowB gw))) (down (rowB gb)))
  Host.tanh (F := F) (layerR z w2 b2 e)

/-! ## At the extended reals these are Spec.lean's -/

theorem srcOf_eq (e : IVec TE2 32) : srcOf e = Cert.Gcn.srcOf e := rfl
theorem tgtOf_eq (e : IVec TE2 32) : tgtOf e = Cert.Gcn.tgtOf e := rfl
theorem takeFill_eq (h : FVec Ideal TN .f32) (s : IVec TE 32) : takeFill (F := Ideal) h s = Cert.Gcn.takeFill h s := rfl
theorem scatterRows_eq (t : IVec TE 32) (u : FVec Ideal TM .f32) : scatterRows (F := Ideal) t u = Cert.Gcn.scatterRows t u := rfl
theorem rowOf_eq (v : FVec Ideal TV .f32) : rowOf (F := Ideal) v = Cert.Gcn.rowOf v := rfl
theorem shiftRow_eq (sum b ms : FVec Ideal TR .f32) : shiftRow (F := Ideal) sum b ms = Cert.Gcn.shiftRow sum b ms := rfl
theorem invStd_eq (sumsq : FVec Ideal TR .f32) : invStd (F := Ideal) sumsq = Cert.Gcn.invStd sumsq := rfl
theorem refF_eq (x : FVec Ideal TN .f32) (e : IVec TE2 32) (w1 : FVec Ideal TD .f32) (b1 : FVec Ideal TV .f32) (w2 : FVec Ideal TD .f32)
    (b2 gw gb gms : FVec Ideal TV .f32) : refF (F := Ideal) x e w1 b1 w2 b2 gw gb gms = Cert.Gcn.refF x e w1 b1 w2 b2 gw gb gms := rfl

end Cert.GcnG

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.Walk.lean ====
/-
  The kernel's result as one function of its arguments.

  Between the launch and the return the device's buffers pass through fourteen valuations: a stretch of host
  operations folds its operations over the valuation before it, a pipelined region replaces its output arrays by what
  its write-backs leave and keeps every other buffer.  Each value the program computes is read where it is made,
  and carried unchanged to where it is used: a host stretch keeps every buffer it does not write, a region keeps
  every buffer that is not one of its arrays and, of its arrays, those it only reads.  Given what each region's
  output array holds as a function of its input arrays (the six hypotheses), the result buffer at the last
  valuation is the composition Cert.Gcn.kerF of the argument arrays.
-/
import proofs.«404520_j32255204393746_1_alg».proof.Proof.Gen.KernelIdeal.Frame
import proofs.«404520_j32255204393746_1_alg».proof.Proof.Spec
import proofs.«404520_j32255204393746_1_alg».proof.Proof.SpecG
import Idealize.ShloMosaic.Lib.StableHlo.Run
import proofs.«404520_j32255204393746_1_alg».proof.Proof.LibTypedRef

set_option maxRecDepth 16384

noncomputable section

namespace Cert.KernelIdeal.GcnWalk

open Cert.KernelIdeal Cert.KernelIdeal.Gen Idealize.ShloMosaic Idealize.ShloMosaic.TcCoe Idealize.SL.Sem
open Idealize.ShloMosaic.Pipeline (Dat)

set_option hygiene false in
/-- A stretch of host operations keeps a buffer none of its operations writes. -/
macro "host_keep" : tactic => `(tactic| (
  refine StableHlo.after_of_forall_not_mem _ _ (List.forall_iff_forall_mem.mp ?_)
  simp only [hostOps0, hostOps1, hostOps1_1, hostOps2, hostOps3, hostOps5, hostOps5_1, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

set_option hygiene false in
/-- One step back across a host stretch, for a buffer the stretch does not write. -/
macro "hk" Wa:ident Wb:ident b:term : tactic => `(tactic|
  refine (show $Wa m ρ c (Proc.devRef .tc $b) = $Wb m ρ c (Proc.devRef .tc $b) from by host_keep).trans ?_)

/-! ## The host stretches, at any instance of the float operations -/

section AnyFloat

variable {F : FTy → Type} [FloatOps F]
variable (m : (ℓ : Loc nD τ sig) → Buf (Elt F) ℓ) (ρ : Dev nD → PrngReg)

/-! ### What each stretch makes, from the valuation it starts at -/

theorem W1_src (c : Dev nD) : W1 m ρ c (Proc.devRef .tc main_v1) = GcnG.srcOf (m ((c : Thread nD τ).loc main_arg1)) := by
  show StableHlo.after hostOps0 (W0 m ρ c) (Proc.devRef .tc main_v1) = _
  after_results
  rfl

theorem W1_tgt (c : Dev nD) : W1 m ρ c (Proc.devRef .tc main_v3) = GcnG.tgtOf (m ((c : Thread nD τ).loc main_arg1)) := by
  show StableHlo.after hostOps0 (W0 m ρ c) (Proc.devRef .tc main_v3) = _
  after_results
  rfl

/-- The rows gathered at the sources, a row read out of range filled (first layer). -/
theorem W3_take (c : Dev nD) :
    W3 m ρ c (Proc.devRef .tc main_v5) = GcnG.takeFill (W2 m ρ c (Proc.devRef .tc main_v4)) (W2 m ρ c (Proc.devRef .tc main_v1)) := by
  show StableHlo.after hostOps1 (W2 m ρ c) (Proc.devRef .tc main_v5) = _
  after_results_simp
  simp only [StableHlo.TRef.ofBuf_toBuf]
  simp only [StableHlo.TRef.ofBuf, StableHlo.TRef.toBuf, cast_eq]
  rfl

/-- The gathered rows added into their target rows (first layer). -/
theorem W4_agg (c : Dev nD) :
    W4 m ρ c (Proc.devRef .tc main_v8) = GcnG.scatterRows (W3 m ρ c (Proc.devRef .tc main_v3)) (W3 m ρ c (Proc.devRef .tc main_v5)) := by
  show StableHlo.after hostOps1_1 (W3 m ρ c) (Proc.devRef .tc main_v8) = _
  generalize W3 m ρ c = W
  after_results
  rfl

theorem W4_b1 (c : Dev nD) : W4 m ρ c (Proc.devRef .tc main_v9) = GcnG.rowOf (W3 m ρ c (Proc.devRef .tc main_arg3)) := by
  show StableHlo.after hostOps1_1 (W3 m ρ c) (Proc.devRef .tc main_v9) = _
  generalize W3 m ρ c = W
  after_results
  rfl

theorem W4_ms (c : Dev nD) : W4 m ρ c (Proc.devRef .tc main_v10) = GcnG.rowOf (W3 m ρ c (Proc.devRef .tc main_arg8)) := by
  show StableHlo.after hostOps1_1 (W3 m ρ c) (Proc.devRef .tc main_v10) = _
  generalize W3 m ρ c = W
  after_results
  rfl

theorem W4_gw (c : Dev nD) : W4 m ρ c (Proc.devRef .tc main_v11) = GcnG.rowOf (W3 m ρ c (Proc.devRef .tc main_arg6)) := by
  show StableHlo.after hostOps1_1 (W3 m ρ c) (Proc.devRef .tc main_v11) = _
  generalize W3 m ρ c = W
  after_results
  rfl

theorem W4_gb (c : Dev nD) : W4 m ρ c (Proc.devRef .tc main_v12) = GcnG.rowOf (W3 m ρ c (Proc.devRef .tc main_arg7)) := by
  show StableHlo.after hostOps1_1 (W3 m ρ c) (Proc.devRef .tc main_v12) = _
  generalize W3 m ρ c = W
  after_results
  rfl

/-- The shift row from the column sums. -/
theorem W6_shift (c : Dev nD) :
    W6 m ρ c (Proc.devRef .tc main_v18)
      = GcnG.shiftRow (W5 m ρ c (Proc.devRef .tc main_v13)) (W5 m ρ c (Proc.devRef .tc main_v9)) (W5 m ρ c (Proc.devRef .tc main_v10)) := by
  show StableHlo.after hostOps2 (W5 m ρ c) (Proc.devRef .tc main_v18) = _
  after_results
  rfl

/-- The reciprocal standard deviation from the sums of squares. -/
theorem W8_inv (c : Dev nD) :
    W8 m ρ c (Proc.devRef .tc main_v24) = GcnG.invStd (W7 m ρ c (Proc.devRef .tc main_v19)) := by
  show StableHlo.after hostOps3 (W7 m ρ c) (Proc.devRef .tc main_v24) = _
  after_results
  rfl

/-- The rows gathered at the sources (second layer). -/
theorem W11_take (c : Dev nD) :
    W11 m ρ c (Proc.devRef .tc main_v27) = GcnG.takeFill (W10 m ρ c (Proc.devRef .tc main_v26)) (W10 m ρ c (Proc.devRef .tc main_v1)) := by
  show StableHlo.after hostOps5 (W10 m ρ c) (Proc.devRef .tc main_v27) = _
  after_results_simp
  simp only [StableHlo.TRef.ofBuf_toBuf]
  simp only [StableHlo.TRef.ofBuf, StableHlo.TRef.toBuf, cast_eq]
  rfl

/-- The gathered rows added into their target rows (second layer). -/
theorem W12_agg (c : Dev nD) :
    W12 m ρ c (Proc.devRef .tc main_v30) = GcnG.scatterRows (W11 m ρ c (Proc.devRef .tc main_v3)) (W11 m ρ c (Proc.devRef .tc main_v27)) := by
  show StableHlo.after hostOps5_1 (W11 m ρ c) (Proc.devRef .tc main_v30) = _
  generalize W11 m ρ c = W
  after_results
  rfl

theorem W12_b2 (c : Dev nD) : W12 m ρ c (Proc.devRef .tc main_v31) = GcnG.rowOf (W11 m ρ c (Proc.devRef .tc main_arg5)) := by
  show StableHlo.after hostOps5_1 (W11 m ρ c) (Proc.devRef .tc main_v31) = _
  generalize W11 m ρ c = W
  after_results
  rfl

/-! ### What is carried unchanged -/

set_option hygiene false in
/-- From the launch to the first layer's second stretch: a buffer no stretch writes and the first region does not hold. -/
macro "carry_3_0" b:term : tactic => `(tactic| (
  hk W3 W2 $b
  refine (W2_of_ne m ρ c $b (by decide)).trans ?_
  hk W1 W0 $b
  rfl))

theorem W3_arg3 (c : Dev nD) : W3 m ρ c (Proc.devRef .tc main_arg3) = m ((c : Thread nD τ).loc main_arg3) := by carry_3_0 main_arg3
theorem W3_arg8 (c : Dev nD) : W3 m ρ c (Proc.devRef .tc main_arg8) = m ((c : Thread nD τ).loc main_arg8) := by carry_3_0 main_arg8
theorem W3_arg6 (c : Dev nD) : W3 m ρ c (Proc.devRef .tc main_arg6) = m ((c : Thread nD τ).loc main_arg6) := by carry_3_0 main_arg6
theorem W3_arg7 (c : Dev nD) : W3 m ρ c (Proc.devRef .tc main_arg7) = m ((c : Thread nD τ).loc main_arg7) := by carry_3_0 main_arg7
theorem W3_arg4 (c : Dev nD) : W3 m ρ c (Proc.devRef .tc main_arg4) = m ((c : Thread nD τ).loc main_arg4) := by carry_3_0 main_arg4
theorem W3_arg5 (c : Dev nD) : W3 m ρ c (Proc.devRef .tc main_arg5) = m ((c : Thread nD τ).loc main_arg5) := by carry_3_0 main_arg5

theorem W2_src (c : Dev nD) : W2 m ρ c (Proc.devRef .tc main_v1) = GcnG.srcOf (m ((c : Thread nD τ).loc main_arg1)) :=
  (W2_of_ne m ρ c main_v1 (by decide)).trans (W1_src m ρ c)
theorem W2_tgt (c : Dev nD) : W2 m ρ c (Proc.devRef .tc main_v3) = GcnG.tgtOf (m ((c : Thread nD τ).loc main_arg1)) :=
  (W2_of_ne m ρ c main_v3 (by decide)).trans (W1_tgt m ρ c)
theorem W3_tgt (c : Dev nD) : W3 m ρ c (Proc.devRef .tc main_v3) = GcnG.tgtOf (m ((c : Thread nD τ).loc main_arg1)) := by
  hk W3 W2 main_v3
  exact W2_tgt m ρ c
theorem W3_src (c : Dev nD) : W3 m ρ c (Proc.devRef .tc main_v1) = GcnG.srcOf (m ((c : Thread nD τ).loc main_arg1)) := by
  hk W3 W2 main_v1
  exact W2_src m ρ c

set_option hygiene false in
/-- From the second layer's start back to the first layer's second stretch: a buffer that no stretch in between writes
    and no region in between holds among its arrays. -/
macro "carry_10_3" b:term : tactic => `(tactic| (
  refine (W10_of_ne m ρ c $b (by decide)).trans ?_
  refine (W9_of_ne m ρ c $b (by decide)).trans ?_
  hk W8 W7 $b
  refine (W7_of_ne m ρ c $b (by decide)).trans ?_
  hk W6 W5 $b
  refine (W5_of_ne m ρ c $b (by decide)).trans ?_
  hk W4 W3 $b))

theorem W10_src (c : Dev nD) : W10 m ρ c (Proc.devRef .tc main_v1) = GcnG.srcOf (m ((c : Thread nD τ).loc main_arg1)) := by
  carry_10_3 main_v1
  exact W3_src m ρ c
theorem W10_tgt (c : Dev nD) : W10 m ρ c (Proc.devRef .tc main_v3) = GcnG.tgtOf (m ((c : Thread nD τ).loc main_arg1)) := by
  carry_10_3 main_v3
  exact W3_tgt m ρ c
theorem W10_arg5 (c : Dev nD) : W10 m ρ c (Proc.devRef .tc main_arg5) = m ((c : Thread nD τ).loc main_arg5) := by
  carry_10_3 main_arg5
  exact W3_arg5 m ρ c
theorem W9_arg4 (c : Dev nD) : W9 m ρ c (Proc.devRef .tc main_arg4) = m ((c : Thread nD τ).loc main_arg4) := by
  refine (W9_of_ne m ρ c main_arg4 (by decide)).trans ?_
  hk W8 W7 main_arg4
  refine (W7_of_ne m ρ c main_arg4 (by decide)).trans ?_
  hk W6 W5 main_arg4
  refine (W5_of_ne m ρ c main_arg4 (by decide)).trans ?_
  hk W4 W3 main_arg4
  exact W3_arg4 m ρ c

theorem W11_tgt (c : Dev nD) : W11 m ρ c (Proc.devRef .tc main_v3) = GcnG.tgtOf (m ((c : Thread nD τ).loc main_arg1)) := by
  hk W11 W10 main_v3
  exact W10_tgt m ρ c
theorem W11_arg5 (c : Dev nD) : W11 m ρ c (Proc.devRef .tc main_arg5) = m ((c : Thread nD τ).loc main_arg5) := by
  hk W11 W10 main_arg5
  exact W10_arg5 m ρ c

/-- The first layer's aggregate where the three regions that read it find it. -/
theorem W5_agg (c : Dev nD) : W5 m ρ c (Proc.devRef .tc main_v8) = W4 m ρ c (Proc.devRef .tc main_v8) :=
  (W5_arr m ρ c 0).trans (((dat1 (V4 m ρ) c).arrAt_in 0 rfl _).trans (A_eq1 (V4 m ρ) c 0))
theorem W6_agg (c : Dev nD) : W6 m ρ c (Proc.devRef .tc main_v8) = W4 m ρ c (Proc.devRef .tc main_v8) := by
  hk W6 W5 main_v8
  exact W5_agg m ρ c
theorem W7_agg (c : Dev nD) : W7 m ρ c (Proc.devRef .tc main_v8) = W4 m ρ c (Proc.devRef .tc main_v8) :=
  ((W7_arr m ρ c 0).trans (((dat2 (V6 m ρ) c).arrAt_in 0 rfl _).trans (A_eq2 (V6 m ρ) c 0))).trans (W6_agg m ρ c)
theorem W8_agg (c : Dev nD) : W8 m ρ c (Proc.devRef .tc main_v8) = W4 m ρ c (Proc.devRef .tc main_v8) := by
  hk W8 W7 main_v8
  exact W7_agg m ρ c
/-- The shift row where the third region finds it. -/
theorem W8_shift (c : Dev nD) : W8 m ρ c (Proc.devRef .tc main_v18) = W6 m ρ c (Proc.devRef .tc main_v18) := by
  hk W8 W7 main_v18
  exact (W7_arr m ρ c 1).trans (((dat2 (V6 m ρ) c).arrAt_in 1 rfl _).trans (A_eq2 (V6 m ρ) c 1))
/-- The scale and shift rows where the third region finds them. -/
theorem W8_gw (c : Dev nD) : W8 m ρ c (Proc.devRef .tc main_v11) = W4 m ρ c (Proc.devRef .tc main_v11) := by
  hk W8 W7 main_v11
  refine (W7_of_ne m ρ c main_v11 (by decide)).trans ?_
  hk W6 W5 main_v11
  exact W5_of_ne m ρ c main_v11 (by decide)
theorem W8_gb (c : Dev nD) : W8 m ρ c (Proc.devRef .tc main_v12) = W4 m ρ c (Proc.devRef .tc main_v12) := by
  hk W8 W7 main_v12
  refine (W7_of_ne m ρ c main_v12 (by decide)).trans ?_
  hk W6 W5 main_v12
  exact W5_of_ne m ρ c main_v12 (by decide)

end AnyFloat

/-! ## At the extended reals: the regions' values composed -/

section Extended

variable (m : (ℓ : Loc nD τ sig) → Buf (Elt Ideal) ℓ) (ρ : Dev nD → PrngReg)

/-! ### The arguments, named -/

abbrev aX (c : Dev nD) : FVec Ideal Gcn.TN .f32 := m ((c : Thread nD τ).loc main_arg0)
abbrev aE (c : Dev nD) : IVec Gcn.TE2 32 := m ((c : Thread nD τ).loc main_arg1)
abbrev aW1 (c : Dev nD) : FVec Ideal Gcn.TD .f32 := m ((c : Thread nD τ).loc main_arg2)
abbrev aB1 (c : Dev nD) : FVec Ideal Gcn.TV .f32 := m ((c : Thread nD τ).loc main_arg3)
abbrev aW2 (c : Dev nD) : FVec Ideal Gcn.TD .f32 := m ((c : Thread nD τ).loc main_arg4)
abbrev aB2 (c : Dev nD) : FVec Ideal Gcn.TV .f32 := m ((c : Thread nD τ).loc main_arg5)
abbrev aGw (c : Dev nD) : FVec Ideal Gcn.TV .f32 := m ((c : Thread nD τ).loc main_arg6)
abbrev aGb (c : Dev nD) : FVec Ideal Gcn.TV .f32 := m ((c : Thread nD τ).loc main_arg7)
abbrev aMs (c : Dev nD) : FVec Ideal Gcn.TV .f32 := m ((c : Thread nD τ).loc main_arg8)

/-! ### The values along the way, named -/

/-- The first layer's aggregate. -/
abbrev vA1 (c : Dev nD) : FVec Ideal Gcn.TN .f32 := Gcn.layerK (aX m c) (aW1 m c) (aE m c)
/-- The shift row. -/
abbrev vCc (c : Dev nD) : FVec Ideal Gcn.TR .f32 := Gcn.shiftRow (Gcn.colsum (vA1 m c)) (Gcn.rowOf (aB1 m c)) (Gcn.rowOf (aMs m c))
/-- The normalised, scaled, shifted first layer through tanh. -/
abbrev vZ (c : Dev nD) : FVec Ideal Gcn.TN .f32 :=
  Gcn.norm (vA1 m c) (vCc m c) (Gcn.invStd (Gcn.colsumsq (vA1 m c) (vCc m c))) (Gcn.rowOf (aGw m c)) (Gcn.rowOf (aGb m c))

/-! ### The six regions' values, assumed here and supplied where the pieces are put together -/

variable (h0 : ∀ (V : (c : Dev nD) → (b : Ref sig .tc) → Buf (Elt Ideal) ((c : Thread nD τ).loc b)) (c : Dev nD),
    (dat0 (F := Ideal) V c).arrAt 2 cfg0.N = Gcn.lin (V c main_arg0) (V c main_arg2))
variable (h1 : ∀ (V : (c : Dev nD) → (b : Ref sig .tc) → Buf (Elt Ideal) ((c : Thread nD τ).loc b)) (c : Dev nD),
    (dat1 (F := Ideal) V c).arrAt 1 cfg1.N = Gcn.colsum (V c main_v8))
variable (h2 : ∀ (V : (c : Dev nD) → (b : Ref sig .tc) → Buf (Elt Ideal) ((c : Thread nD τ).loc b)) (c : Dev nD),
    (dat2 (F := Ideal) V c).arrAt 2 cfg2.N = Gcn.colsumsq (V c main_v8) (V c main_v18))
variable (h3 : ∀ (V : (c : Dev nD) → (b : Ref sig .tc) → Buf (Elt Ideal) ((c : Thread nD τ).loc b)) (c : Dev nD),
    (dat3 (F := Ideal) V c).arrAt 5 cfg3.N = Gcn.norm (V c main_v8) (V c main_v18) (V c main_v24) (V c main_v11) (V c main_v12))
variable (h4 : ∀ (V : (c : Dev nD) → (b : Ref sig .tc) → Buf (Elt Ideal) ((c : Thread nD τ).loc b)) (c : Dev nD),
    (dat4 (F := Ideal) V c).arrAt 2 cfg4.N = Gcn.lin (V c main_v25) (V c main_arg4))
variable (h5 : ∀ (V : (c : Dev nD) → (b : Ref sig .tc) → Buf (Elt Ideal) ((c : Thread nD τ).loc b)) (c : Dev nD),
    (dat5 (F := Ideal) V c).arrAt 2 cfg5.N = Gcn.biasTanh (V c main_v30) (V c main_v31))

/-! ### The first layer -/

include h0 in
theorem W2_h1 (c : Dev nD) : W2 m ρ c (Proc.devRef .tc main_v4) = Gcn.lin (aX m c) (aW1 m c) := by
  have e0 : V1 m ρ c main_arg0 = aX m c := by
    show W1 m ρ c (Proc.devRef .tc main_arg0) = _
    hk W1 W0 main_arg0
    rfl
  have e2 : V1 m ρ c main_arg2 = aW1 m c := by
    show W1 m ρ c (Proc.devRef .tc main_arg2) = _
    hk W1 W0 main_arg2
    rfl
  exact ((W2_arr m ρ c 2).trans (h0 (V1 m ρ) c)).trans (congrArg₂ Gcn.lin e0 e2)

include h0 in
theorem W4_a1 (c : Dev nD) : W4 m ρ c (Proc.devRef .tc main_v8) = vA1 m c := by
  rw [W4_agg m ρ c, W3_take m ρ c, W3_tgt m ρ c, W2_src m ρ c, W2_h1 m ρ h0 c,
    GcnG.takeFill_eq, GcnG.scatterRows_eq, GcnG.srcOf_eq, GcnG.tgtOf_eq]
  rfl

theorem W4_b1r (c : Dev nD) : W4 m ρ c (Proc.devRef .tc main_v9) = Gcn.rowOf (aB1 m c) := by
  rw [W4_b1 m ρ c, W3_arg3 m ρ c, GcnG.rowOf_eq]
theorem W4_msr (c : Dev nD) : W4 m ρ c (Proc.devRef .tc main_v10) = Gcn.rowOf (aMs m c) := by
  rw [W4_ms m ρ c, W3_arg8 m ρ c, GcnG.rowOf_eq]
theorem W4_gwr (c : Dev nD) : W4 m ρ c (Proc.devRef .tc main_v11) = Gcn.rowOf (aGw m c) := by
  rw [W4_gw m ρ c, W3_arg6 m ρ c, GcnG.rowOf_eq]
theorem W4_gbr (c : Dev nD) : W4 m ρ c (Proc.devRef .tc main_v12) = Gcn.rowOf (aGb m c) := by
  rw [W4_gb m ρ c, W3_arg7 m ρ c, GcnG.rowOf_eq]

/-! ### The normalisation -/

include h0 h1 in
theorem W5_sum (c : Dev nD) : W5 m ρ c (Proc.devRef .tc main_v13) = Gcn.colsum (vA1 m c) :=
  ((W5_arr m ρ c 1).trans (h1 (V4 m ρ) c)).trans (congrArg Gcn.colsum (W4_a1 m ρ h0 c))

include h0 h1 in
theorem W6_cc (c : Dev nD) : W6 m ρ c (Proc.devRef .tc main_v18) = vCc m c := by
  rw [W6_shift m ρ c, W5_sum m ρ h0 h1 c, W5_of_ne m ρ c main_v9 (by decide), W5_of_ne m ρ c main_v10 (by decide),
    W4_b1r m ρ c, W4_msr m ρ c, GcnG.shiftRow_eq]

include h0 h1 h2 in
theorem W7_sumsq (c : Dev nD) : W7 m ρ c (Proc.devRef .tc main_v19) = Gcn.colsumsq (vA1 m c) (vCc m c) :=
  ((W7_arr m ρ c 2).trans (h2 (V6 m ρ) c)).trans
    (congrArg₂ Gcn.colsumsq ((W6_agg m ρ c).trans (W4_a1 m ρ h0 c)) (W6_cc m ρ h0 h1 c))

include h0 h1 h2 in
theorem W8_invr (c : Dev nD) : W8 m ρ c (Proc.devRef .tc main_v24) = Gcn.invStd (Gcn.colsumsq (vA1 m c) (vCc m c)) := by
  rw [W8_inv m ρ c, W7_sumsq m ρ h0 h1 h2 c, GcnG.invStd_eq]

include h0 h1 h2 h3 in
theorem W9_z (c : Dev nD) : W9 m ρ c (Proc.devRef .tc main_v25) = vZ m c := by
  refine ((W9_arr m ρ c 5).trans (h3 (V8 m ρ) c)).trans ?_
  have e8 : V8 m ρ c main_v8 = vA1 m c := (W8_agg m ρ c).trans (W4_a1 m ρ h0 c)
  have e18 : V8 m ρ c main_v18 = vCc m c := (W8_shift m ρ c).trans (W6_cc m ρ h0 h1 c)
  have e24 : V8 m ρ c main_v24 = Gcn.invStd (Gcn.colsumsq (vA1 m c) (vCc m c)) := W8_invr m ρ h0 h1 h2 c
  have e11 : V8 m ρ c main_v11 = Gcn.rowOf (aGw m c) := (W8_gw m ρ c).trans (W4_gwr m ρ c)
  have e12 : V8 m ρ c main_v12 = Gcn.rowOf (aGb m c) := (W8_gb m ρ c).trans (W4_gbr m ρ c)
  rw [e8, e18, e24, e11, e12]

/-! ### The second layer and the result -/

include h0 h1 h2 h3 h4 in
theorem W10_h2 (c : Dev nD) : W10 m ρ c (Proc.devRef .tc main_v26) = Gcn.lin (vZ m c) (aW2 m c) :=
  ((W10_arr m ρ c 2).trans (h4 (V9 m ρ) c)).trans (congrArg₂ Gcn.lin (W9_z m ρ h0 h1 h2 h3 c) (W9_arg4 m ρ c))

include h0 h1 h2 h3 h4 in
theorem W12_a2 (c : Dev nD) : W12 m ρ c (Proc.devRef .tc main_v30) = Gcn.layerK (vZ m c) (aW2 m c) (aE m c) := by
  rw [W12_agg m ρ c, W11_take m ρ c, W11_tgt m ρ c, W10_src m ρ c, W10_h2 m ρ h0 h1 h2 h3 h4 c,
    GcnG.takeFill_eq, GcnG.scatterRows_eq, GcnG.srcOf_eq, GcnG.tgtOf_eq]
  rfl

theorem W12_b2r (c : Dev nD) : W12 m ρ c (Proc.devRef .tc main_v31) = Gcn.rowOf (aB2 m c) := by
  rw [W12_b2 m ρ c, W11_arg5 m ρ c, GcnG.rowOf_eq]

include h0 h1 h2 h3 h4 h5 in
/-- The result buffer at the last valuation is the kernel's composition of the argument arrays. -/
theorem result_eq (c : Dev nD) :
    W13 m ρ c (Proc.devRef .tc main_v32)
      = Gcn.kerF (aX m c) (aE m c) (aW1 m c) (aB1 m c) (aW2 m c) (aB2 m c) (aGw m c) (aGb m c) (aMs m c) :=
  ((W13_arr m ρ c 2).trans (h5 (V12 m ρ) c)).trans
    (congrArg₂ Gcn.biasTanh (W12_a2 m ρ h0 h1 h2 h3 h4 c) (W12_b2r m ρ c))

end Extended

end Cert.KernelIdeal.GcnWalk

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Reg0.lean ====
/-
  Region 0: a row-blocked matrix product.

  The 50000×256 left array is cut into ten blocks of 5000 rows; grid point t reads row block t of it and the whole
  256×256 matrix, and writes row block t of the result.  The body's arithmetic at entry (p, q) of a block is the
  contraction sum over k < 256 of left(p, k) · matrix(k, q): over the extended reals a change of number format is the
  identity and a product accumulated into zero is the plain sum.  Row p of block t is row t · 5000 + p of the array,
  the ten blocks tile the array's rows, so the result array ends holding, at (r, j), the sum over k of
  left(r, k) · matrix(k, j).
-/
import proofs.«404520_j32255204393746_1_alg».proof.Proof.Gen.KernelIdeal.Frame
import proofs.«404520_j32255204393746_1_alg».proof.Proof.Spec
import proofs.«404520_j32255204393746_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.GcnReg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry of a block -/

/-- Entry (p, q) of the body's result is the sum over k < 256 of x(p, k) · w(k, q): the format changes are the identity
    over the extended reals, the accumulator is zero, and the contraction index is the number k. -/
theorem pay_apply (x : Vec Ideal S5000x256 .f32) (w : Vec Ideal S256x256 .f32) (p : Fin 5000) (q : Fin 256) :
    k0_pay1 (F := Ideal) x w (ix2 p q) = ∑ k : Fin 256, x (ix2 p k) * w (ix2 k q) := by
  unfold k0_pay1
  refine (Ideal.matmul_constant_zero_apply dot_S5000x256_S256x256_S5000x256_1_0_0_1_n_n none _ _ (ix2 p q)).trans ?_
  exact PlainDot.sum_eq (R := 5000) (K := 256) (C := 256) dot_S5000x256_S256x256_S5000x256_1_0_0_1_n_n
    rfl rfl rfl rfl rfl rfl _ _ p q

/-! ## Where each block sits in its array -/

theorem hz : (![0, 0] : Fin 2 → Nat) = fun _ => 0 := funext fun a => by fin_cases a <;> rfl

/-- The three index maps, over the ten grid points: the left array's and the result's block index is (t, 0), the
    matrix's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What a grid point writes back -/

/-- Point t writes back row block t of the product of the two arrays the region finds.  Entry (p, q) of the block is
    the sum over k of the left block's (p, k) times the matrix block's (k, q); the left block's row p is the array's
    row t · 5000 + p, which is also the row of the result block's entry, and the matrix block is the whole matrix. -/
theorem flushed_eq (c : Dev nD) (t : Fin cfg0.N) :
    (dat0 (F := Ideal) V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q)
      = Cert.Gcn.lin (V c main_arg0) (V c main_arg2) (((cfg0.win 2).blk t).view.emb (ix2 p q))
  rw [pay_apply]
  unfold Cert.Gcn.lin
  refine Finset.sum_congr rfl fun k _ => ?_
  -- the left block's (p, k) is the left array at (row of the result entry, k)
  have hx : iblk0 V c 0 t (ix2 p k) = V c main_arg0 (ix2 ((((cfg0.win 2).blk t).view.emb (ix2 p q)) 0) k) := by
    show V c main_arg0 (((cfg0.win 0).blk t).view.emb (ix2 p k)) = _
    congr 1
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  -- the matrix block's (k, q) is the matrix at (k, column of the result entry)
  have hw : iblk0 V c 1 t (ix2 k q) = V c main_arg2 (ix2 k ((((cfg0.win 2).blk t).view.emb (ix2 p q)) 1)) := by
    show V c main_arg2 (((cfg0.win 1).blk t).view.emb (ix2 k q)) = _
    congr 1
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [hx, hw]

/-! ## The blocks tile the result -/

/-- An index of the result is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v4).slice (win0_2.rect t)).set ↔ _
  rw [View.set_slice_whole, Rect.mem_set_unit]
  exact Iff.rfl

/-- Every index of the result is in some point's block: row r is in block r / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by show (i 0).val / 5000 < 10; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-! ## The region's value -/

/-- The result array ends holding the product of the two arrays the region finds, entry by entry. -/
theorem final0 (c : Dev nD) :
    (dat0 (F := Ideal) V c).arrAt 2 cfg0.N = Cert.Gcn.lin (V c main_arg0) (V c main_arg2) :=
  (dat0 (F := Ideal) V c).arrAt_eq_of_cover 2 _ (fun t _ => flushed_eq V c t) cover

end Cert.KernelIdeal.GcnReg0

end
-- ==== Proof.LibBlockSum.lean ====
/-
  A filtered sum over the first `B * (t + 1)` positions of `Fin N`, split into the first `B * t` positions and
  the block of `B` positions after them.

  This is the arithmetic of an accumulator that visits an array block by block: after block `t` it holds the sum
  over the positions below `B * (t + 1)`; the positions of block `t` are `B * t + n` for `n < B`.
-/
import Mathlib.Algebra.BigOperators.Group.Finset.Basic
import Mathlib.Data.Fintype.Basic
import Mathlib.Data.Fin.Basic

open scoped BigOperators

namespace BlockSum

/-- Position `n` of block `t`, as a position of the whole array. -/
def pos {N B : Nat} (t : Nat) (hN : B * (t + 1) ≤ N) (n : Fin B) : Fin N :=
  ⟨B * t + n.val, by have := n.isLt; rw [Nat.mul_succ] at hN; omega⟩

/-- Nothing lies below position `B * 0`. -/
theorem sum_below_zero {M : Type} [AddCommMonoid M] {N B : Nat} (p : Fin N → Prop) [DecidablePred p] (f : Fin N → M) :
    ∑ e ∈ Finset.univ.filter (fun e : Fin N => e.val < B * 0 ∧ p e), f e = 0 := by
  have hempty : Finset.univ.filter (fun e : Fin N => e.val < B * 0 ∧ p e) = ∅ := by
    apply Finset.filter_eq_empty_iff.mpr
    intro e _ h
    have h1 := h.1
    rw [Nat.mul_zero] at h1
    exact Nat.not_lt_zero _ h1
  rw [hempty, Finset.sum_empty]

/-- The positions below `B * (t + 1)` are those below `B * t` and the block's. -/
theorem sum_below_succ {M : Type} [AddCommMonoid M] {N B : Nat} (t : Nat) (hN : B * (t + 1) ≤ N)
    (p : Fin N → Prop) [DecidablePred p] (f : Fin N → M) :
    ∑ e ∈ Finset.univ.filter (fun e : Fin N => e.val < B * (t + 1) ∧ p e), f e
      = ∑ e ∈ Finset.univ.filter (fun e : Fin N => e.val < B * t ∧ p e), f e
        + ∑ n ∈ Finset.univ.filter (fun n : Fin B => p (pos t hN n)), f (pos t hN n) := by
  -- split the positions below `B * (t + 1)` at `B * t`
  rw [← Finset.sum_filter_add_sum_filter_not
    (Finset.univ.filter (fun e : Fin N => e.val < B * (t + 1) ∧ p e)) (fun e : Fin N => e.val < B * t) f]
  rw [Finset.filter_filter, Finset.filter_filter]
  congr 1
  · -- below `B * t` the larger bound says nothing
    refine Finset.sum_congr (Finset.filter_congr fun e _ => ?_) fun _ _ => rfl
    constructor
    · rintro ⟨⟨_, hp⟩, hlt⟩
      exact ⟨hlt, hp⟩
    · rintro ⟨hlt, hp⟩
      exact ⟨⟨by rw [Nat.mul_succ]; omega, hp⟩, hlt⟩
  · -- the positions from `B * t` up to `B * (t + 1)` are the block's, one for each `n < B`
    symm
    refine Finset.sum_nbij (fun n => pos t hN n) ?_ ?_ ?_ ?_
    · intro n hn
      rw [Finset.mem_filter] at hn ⊢
      have hnB := n.isLt
      refine ⟨Finset.mem_univ _, ⟨?_, hn.2⟩, ?_⟩
      · show B * t + n.val < B * (t + 1)
        rw [Nat.mul_succ]
        omega
      · show ¬ (B * t + n.val < B * t)
        omega
    · intro a _ b _ hab
      have hv : B * t + a.val = B * t + b.val := congrArg Fin.val hab
      exact Fin.ext (by omega)
    · intro e he
      rw [Finset.mem_coe, Finset.mem_filter] at he
      obtain ⟨_, ⟨hlt, hp⟩, hge⟩ := he
      rw [Nat.mul_succ] at hlt
      have hback : pos t hN ⟨e.val - B * t, by omega⟩ = e :=
        Fin.ext (by show B * t + (e.val - B * t) = e.val; omega)
      refine ⟨⟨e.val - B * t, by omega⟩, ?_, hback⟩
      rw [Finset.mem_coe, Finset.mem_filter]
      exact ⟨Finset.mem_univ _, by rw [hback]; exact hp⟩
    · intro n _
      rfl

/-- Once every position is below the bound the bound says nothing. -/
theorem sum_below_all {M : Type} [AddCommMonoid M] {N B T : Nat} (hN : B * T = N)
    (p : Fin N → Prop) [DecidablePred p] (f : Fin N → M) :
    ∑ e ∈ Finset.univ.filter (fun e : Fin N => e.val < B * T ∧ p e), f e
      = ∑ e ∈ Finset.univ.filter (fun e : Fin N => p e), f e := by
  refine Finset.sum_congr (Finset.filter_congr fun e _ => ?_) fun _ _ => rfl
  exact ⟨fun h => h.2, fun h => ⟨by rw [hN]; exact e.isLt, h⟩⟩

end BlockSum
-- ==== Proof.Reg1.lean ====
/-
  Region 1: the column sums of a 50000×256 array, accumulated over ten row blocks of 5000 rows.

  The output is one 1×256 row carried from point to point. At the first point the body resets the row to zero
  and adds the column sums of block 0; at every later point it adds the column sums of that point's block. So
  after point n the row holds, in column q, the sum of the array's entries in column q over the rows below
  5000 · (n + 1); after the last point, over all 50000 rows. Addition of extended reals is commutative and
  associative, so the sum over the rows below a bound splits into the rows below the previous bound and the
  rows of one block.
-/
import proofs.«404520_j32255204393746_1_alg».proof.Proof.Gen.KernelIdeal.Frame
import proofs.«404520_j32255204393746_1_alg».proof.Proof.Spec
import proofs.«404520_j32255204393746_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat)

namespace Cert.KernelIdeal.GcnReg1

variable (V : (c : Dev nD) → (b : Ref sig .tc) → Buf (Elt Ideal) ((c : Thread nD τ).loc b))

/-! ## The body's arithmetic at an index -/

theorem hz : (![0, 0] : Fin 2 → Nat) = fun _ => 0 := funext fun a => by fin_cases a <;> rfl

/-- The column sums of a 5000×256 block, read at column `q`: the sum over the block's rows. -/
theorem colred_apply (x : Vec Ideal S5000x256 .f32) (h : S5000x256.Reduces [0] S256)
    (hφ : FKind.Formats FTy.f32) (hacc : (0x00000000#32 : BitVec FTy.f32.bits) = FKind.add.neutral FTy.f32 hφ) (q : Fin 256) :
    multiReduction (F := Ideal) .add [0] S256 x 0x00000000#32 h hφ hacc (ix1 q) = ∑ r : Fin 5000, x (ix2 r q) := by
  refine (Ideal.multiReduction_add_single x _ h hφ hacc (ix1 q)).trans ?_
  refine Finset.sum_congr rfl fun r _ => congrArg x ?_
  funext a
  apply Fin.ext
  rw [h.lift_val]
  match a with
  | ⟨0, _⟩ => rfl
  | ⟨1, _⟩ => rfl

/-- The update the body stores: the row it read plus the block's column sums. -/
theorem pay2_apply (xo : Vec Ideal S1x256 .f32) (x : Vec Ideal S5000x256 .f32) (u : Fin 1) (q : Fin 256) :
    k1_pay2 (F := Ideal) xo x (ix2 u q) = xo (ix2 u q) + ∑ r : Fin 5000, x (ix2 r q) := by
  unfold k1_pay2
  rw [shapeCast_self, shapeCast_self, addf_apply, shapeCast_a_1a_apply]
  exact congrArg (fun z => xo (ix2 u q) + z) (colred_apply x _ _ _ q)

/-- The reset the body stores at the first point: the zero row. -/
theorem pay1_apply (j : S1x256.Idx) : k1_pay1 (F := Ideal) j = 0 := by
  unfold k1_pay1
  exact Ideal.ofBits_zero_f32

/-! ## What each case of the body leaves in the output's staging buffer -/

/-- Away from the first point the body leaves, over the row `xo` it finds, the update of `xo` by the block `x`. -/
theorem out_B (c : Dev nD) (i : grid1.Coords) (a1 : Memref sig .tc .vmem S5000x256 .f32) (h1 : a1.IsWhole)
    (a2 : Memref sig .tc .vmem S1x256 .f32) (h2 : a2.IsWhole) (hc : ¬cond1_0 i)
    (x : Vec Ideal S5000x256 .f32) (xo : Vec Ideal S1x256 .f32) :
    out1_B_1 (F := Ideal) c i a1 h1 a2 h2 hc x xo = k1_pay2 (F := Ideal) xo x := by
  unfold out1_B_1
  rw [View.read_writes_eq_canon _ _ _ (cover1_B_1 c i a1 h1 a2 h2 hc x xo)]
  unfold kernelRun1_B
  dsimp only
  rw [View.canon_unit_zero hz]
  simp only [View.readAt_eq_ld, h1.read_unread, h2.read_unread, View.ld_unit_zero (S := S1x256) hz,
    View.ld_unit_zero (S := S5000x256) hz]

/-- At the first point the body stores the zero row, reads it back, and leaves its update by the block `x`. -/
theorem out_A (c : Dev nD) (i : grid1.Coords) (a1 : Memref sig .tc .vmem S5000x256 .f32) (h1 : a1.IsWhole)
    (a2 : Memref sig .tc .vmem S1x256 .f32) (h2 : a2.IsWhole) (hc : cond1_0 i)
    (x : Vec Ideal S5000x256 .f32) :
    out1_A_1 (F := Ideal) c i a1 h1 a2 h2 hc x = k1_pay2 (F := Ideal) (k1_pay1 (F := Ideal)) x := by
  unfold out1_A_1
  rw [View.read_writes_eq_canon _ _ _ (cover1_A_1 c i a1 h1 a2 h2 hc x)]
  unfold kernelRun1_A
  dsimp only
  sl_unfold_words
  rw [View.canon_cons_unit_zero (S := S1x256) hz, View.readCov_unit_zero (S := S1x256) _ hz]
  simp only [View.readAt_eq_ld, h1.read_unread, View.ld_unit_zero (S := S1x256) hz,
    View.ld_unit_zero (S := S5000x256) hz]

/-! ## The running sum -/

/-- The column sums of `a` over its rows below `5000 * n`, as a 1×256 row. -/
def rowsBelow (a : FVec Ideal S50000x256 .f32) (n : ℕ) : FVec Ideal S1x256 .f32 :=
  fun j => ∑ e ∈ Finset.univ.filter (fun e : Fin 50000 => e.val < 5000 * n ∧ True), a (ix2 e (j 1))

/-- No row lies below row 0. -/
theorem rowsBelow_zero (a : FVec Ideal S50000x256 .f32) (j : S1x256.Idx) : rowsBelow a 0 j = 0 :=
  BlockSum.sum_below_zero (N := 50000) (B := 5000) (fun _ => True) (fun e => a (ix2 e (j 1)))

/-- The rows below `5000 * (n + 1)` are those below `5000 * n` and the 5000 rows of block `n`. -/
theorem rowsBelow_succ (a : FVec Ideal S50000x256 .f32) (n : ℕ) (hN : 5000 * (n + 1) ≤ 50000) (j : S1x256.Idx) :
    rowsBelow a (n + 1) j = rowsBelow a n j + ∑ r : Fin 5000, a (ix2 (BlockSum.pos n hN r) (j 1)) := by
  unfold rowsBelow
  rw [BlockSum.sum_below_succ (N := 50000) (B := 5000) n hN (fun _ => True) (fun e => a (ix2 e (j 1)))]
  rw [Finset.filter_true_of_mem (s := (Finset.univ : Finset (Fin 5000))) (p := fun _ => True) fun _ _ => trivial]

/-- Once every row is below the bound, the sum is over all rows. -/
theorem rowsBelow_all (a : FVec Ideal S50000x256 .f32) (j : S1x256.Idx) :
    rowsBelow a 10 j = ∑ r : Fin 50000, a (ix2 r (j 1)) := by
  unfold rowsBelow
  rw [BlockSum.sum_below_all (N := 50000) (B := 5000) (T := 10) (by norm_num) (fun _ => True) (fun e => a (ix2 e (j 1)))]
  rw [Finset.filter_true_of_mem (s := (Finset.univ : Finset (Fin 50000))) (p := fun _ => True) fun _ _ => trivial]

/-! ## The input window's block at a point -/

/-- The input window's block index at point `t` is `(t, 0)`: decided over the grid. -/
theorem idx_facts : ∀ t : Fin cfg1.N, win1_0.index t (0 : Fin 2) = t.val ∧ win1_0.index t (1 : Fin 2) = 0 :=
  (by decide +kernel : ∀ t : Fin grid1.N, _)

/-- Row `r`, column `q` of the block at point `t` is row `5000 * t + r`, column `q` of the array. -/
theorem blk_apply (c : Dev nD) (t : Fin cfg1.N) (hN : 5000 * (t.val + 1) ≤ 50000) (r : Fin 5000) (q : Fin 256) :
    (iblk1 V c 0 t : Vec Ideal S5000x256 .f32) (ix2 r q) = V c main_v8 (ix2 (BlockSum.pos t.val hN r) q) := by
  obtain ⟨e0, e1⟩ := idx_facts t
  unfold iblk1
  rw [View.read_apply]
  show V c main_v8 _ = V c main_v8 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 256 + 1 * q.val = q.val; rw [e1]; omega

/-! ## What the output's staging buffer holds after each point -/

/-- After point `n` the staging buffer holds the column sums over the rows below `5000 * (n + 1)`. -/
theorem outsAt_eq (c : Dev nD) : ∀ (n : ℕ) (h : n < cfg1.N), outsAt1 V c n h = rowsBelow (V c main_v8) (n + 1)
  | 0, h => by
    refine (outsAt1_A V c ⟨0, h⟩ rfl).trans ?_
    rw [out_A]
    funext j
    obtain ⟨u, q, rfl⟩ : ∃ (u : Fin 1) (q : Fin 256), j = ix2 u q := ⟨j 0, j 1, eq_ix2 j⟩
    rw [pay2_apply, pay1_apply, rowsBelow_succ (V c main_v8) 0 (by omega), rowsBelow_zero]
    refine congrArg (fun z => (0 : Ideal .f32) + z) (Finset.sum_congr rfl fun r _ => ?_)
    exact blk_apply V c ⟨0, h⟩ (by dsimp only; omega) r q
  | n + 1, h => by
    have hN : cfg1.N = 10 := N_1
    have hn : n + 1 < 10 := lt_of_lt_of_eq h hN
    have hB : ¬(⟨n + 1, h⟩ : Fin cfg1.N).val % 10 = 0 := by dsimp only; omega
    rw [outsAt1_B V c ⟨n + 1, h⟩ hB, out_B]
    funext j
    obtain ⟨u, q, rfl⟩ : ∃ (u : Fin 1) (q : Fin 256), j = ix2 u q := ⟨j 0, j 1, eq_ix2 j⟩
    rw [pay2_apply, rowsBelow_succ (V c main_v8) (n + 1) (by omega)]
    show outsAt1 V c n _ (ix2 u q) + _ = _
    rw [outsAt_eq c n]
    refine congrArg (fun z => rowsBelow (V c main_v8) (n + 1) (ix2 u q) + z) (Finset.sum_congr rfl fun r _ => ?_)
    exact blk_apply V c ⟨n + 1, h⟩ (by dsimp only; omega) r q

/-! ## The output array after the run -/

/-- The column sums over all rows, as contents of the output array (its one block is the whole array). -/
abbrev result (c : Dev nD) : Buf (Elt Ideal) ((c : Thread nD τ).loc main_v13) := rowsBelow (V c main_v8) 10

/-- The one write-back, after the last point, writes the sums over all rows: block (0, 0) of the 1×256 array read
    through zero offsets is the array. -/
theorem flushed_eq (c : Dev nD) (t : Fin cfg1.N) (hf : (cfg1.win 1).flush t = true) :
    (dat1 (F := Ideal) V c).flushed 1 t = ((cfg1.win 1).blk t).view.read (Elt Ideal) (result V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1, outsAt_eq]
  have hz' : (fun a => win1_1.index t1_9 a * main_v13.ty.shape.size a) = fun _ => 0 := funext fun a => by fin_cases a <;> decide
  exact (Memref.read_access_unit_zero (Elt Ideal) main_v13 hz' (fun a => by rw [congrFun hz' a]; simp) (result V c)).symm

/-- The output array ends holding the column sums of the input array over all its rows. -/
theorem final1 (c : Dev nD) :
    (dat1 (F := Ideal) V c).arrAt 1 cfg1.N = Cert.Gcn.colsum (V c main_v8) := by
  refine ((dat1 (F := Ideal) V c).arrAt_eq_of_cover 1 (result V c) (flushed_eq V c) fun i =>
    ⟨t1_9, (flush1_1 t1_9).mpr rfl, ?_⟩).trans ?_
  · show i ∈ ((View.whole main_v13).slice (win1_1.rect t1_9)).set
    rw [View.set_slice_whole, Rect.mem_set_unit]
    intro a
    have h0 : (i 0 : Nat) < 1 := (i 0).isLt
    have h1 : (i 1 : Nat) < 256 := (i 1).isLt
    match a with
    | ⟨0, _⟩ => show win1_1.index t1_9 0 * win1_1.size 0 ≤ (i 0 : Nat) ∧ (i 0 : Nat) < win1_1.index t1_9 0 * win1_1.size 0 + win1_1.xsize (grid1.coords t1_9) 0
                rw [show win1_1.index t1_9 0 * win1_1.size 0 = 0 from by decide +kernel, show win1_1.xsize (grid1.coords t1_9) 0 = 1 from by decide +kernel]; omega
    | ⟨1, _⟩ => show win1_1.index t1_9 1 * win1_1.size 1 ≤ (i 1 : Nat) ∧ (i 1 : Nat) < win1_1.index t1_9 1 * win1_1.size 1 + win1_1.xsize (grid1.coords t1_9) 1
                rw [show win1_1.index t1_9 1 * win1_1.size 1 = 0 from by decide +kernel, show win1_1.xsize (grid1.coords t1_9) 1 = 256 from by decide +kernel]; omega
  · funext j
    exact rowsBelow_all (V c main_v8) j

end Cert.KernelIdeal.GcnReg1

end
-- ==== Proof.Reg2.lean ====
/-
  The sum-of-squares region as a value.

  The region visits the 50000×256 array `a` in ten blocks of 5000 rows, with a 1×256 shift row `c` held fixed, and
  carries a 1×256 row from point to point: zero before the first block, and after block `t` the carried row plus,
  at each column `j`, the sum over the block's rows `r` of `(a(r, j) + c(0, j)) · (a(r, j) + c(0, j))`.

  So after point `n` the carried row is, at column `j`, the sum of those shifted squares over the rows below
  `5000 (n + 1)`: the rows below `5000 (n + 1)` are the rows below `5000 n` together with block `n`'s rows
  `5000 n + p`, `p < 5000`, and addition in the extended reals is a commutative monoid, so the split needs no
  finiteness. After the last point every row is below the bound, the row is written back once, and the output
  window's single block is the whole 1×256 array: it ends holding the column sums over all 50000 rows.
-/
import proofs.«404520_j32255204393746_1_alg».proof.Proof.Gen.KernelIdeal.Frame
import proofs.«404520_j32255204393746_1_alg».proof.Proof.Spec
import proofs.«404520_j32255204393746_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat)
open scoped BigOperators

namespace Cert.KernelIdeal.GcnReg2

variable (V : (c : Dev nD) → (b : Ref sig .tc) → Buf (Elt Ideal) ((c : Thread nD τ).loc b))

/-- The offsets of a block that starts at the origin: zero on both axes. -/
theorem hz : (![0, 0] : Fin 2 → Nat) = fun _ => 0 := funext fun a => by fin_cases a <;> rfl

/-- The reset row reads zero at every index. -/
theorem zero_apply (j : S1x256.Idx) : k2_pay1 (F := Ideal) j = 0 := by
  unfold k2_pay1
  show Ideal.ofBits .f32 0x00000000#32 = 0
  exact Ideal.ofBits_zero_f32

/-- The sum over the block's rows, at a column, as the reduction along axis 0 reads it. -/
theorem colred_apply (y : FVec Ideal S5000x256 .f32) (h : S5000x256.Reduces [0] S256) (hφ : FKind.Formats .f32)
    (hacc : (0x00000000#32 : BitVec 32) = 0x00000000#32) (q : Fin 256) :
    multiReduction .add [0] S256 y 0x00000000#32 h hφ hacc (ix1 q) = ∑ p : Fin 5000, y (ix2 p q) := by
  refine (Ideal.multiReduction_add_single y _ h hφ hacc (ix1 q)).trans ?_
  refine Finset.sum_congr rfl fun p _ => ?_
  congr 1
  funext a
  apply Fin.ext
  match a with
  | ⟨0, _⟩ => rfl
  | ⟨1, _⟩ => rfl

/-- The update's payload at a column: the carried row there plus the block's column sum of the shifted squares. -/
theorem pay2_apply (x : Vec Ideal S5000x256 .f32) (r acc : Vec Ideal S1x256 .f32) (u : Fin 1) (q : Fin 256) :
    k2_pay2 (F := Ideal) x r acc (ix2 u q)
      = acc (ix2 u q) + ∑ p : Fin 5000, (x (ix2 p q) + r (ix2 0 q)) * (x (ix2 p q) + r (ix2 0 q)) := by
  unfold k2_pay2
  simp only [shapeCast_self]
  rw [addf_apply, shapeCast_a_1a_apply]
  refine congrArg _ ((colred_apply _ _ _ _ q).trans (Finset.sum_congr rfl fun p _ => ?_))
  rw [mulf_apply, addf_apply, broadcastTo_1b_ab_apply]

/-- At a point past the first the body leaves, over the carried row `xo`, the update's payload of the two input blocks
    and `xo`: its one store covers the row, and each load reads a whole buffer. -/
theorem out_B (c : Dev nD) (i : grid2.Coords) (a1 : Memref sig .tc .vmem S5000x256 .f32) (h1 : a1.IsWhole)
    (a2 : Memref sig .tc .vmem S1x256 .f32) (h2 : a2.IsWhole) (a3 : Memref sig .tc .vmem S1x256 .f32) (h3 : a3.IsWhole)
    (hc : ¬cond2_0 i) (x0 : Vec Ideal S5000x256 .f32) (x1 xo : Vec Ideal S1x256 .f32) :
    out2_B_2 (F := Ideal) c i a1 h1 a2 h2 a3 h3 hc x0 x1 xo = k2_pay2 (F := Ideal) x0 x1 xo := by
  unfold out2_B_2
  rw [View.read_writes_eq_canon _ _ _ (cover2_B_2 c i a1 h1 a2 h2 a3 h3 hc x0 x1 xo)]
  unfold kernelRun2_B
  dsimp only
  rw [View.canon_unit_zero hz]
  simp only [View.readAt_eq_ld, h1.read_unread, h2.read_unread, h3.read_unread, View.ld_unit_zero (S := S5000x256) hz,
    View.ld_unit_zero (S := S1x256) hz]

/-- At the first point the body stores the zero row, reads it back, and leaves the update's payload over it. -/
theorem out_A (c : Dev nD) (i : grid2.Coords) (a1 : Memref sig .tc .vmem S5000x256 .f32) (h1 : a1.IsWhole)
    (a2 : Memref sig .tc .vmem S1x256 .f32) (h2 : a2.IsWhole) (a3 : Memref sig .tc .vmem S1x256 .f32) (h3 : a3.IsWhole)
    (hc : cond2_0 i) (x0 : Vec Ideal S5000x256 .f32) (x1 : Vec Ideal S1x256 .f32) :
    out2_A_2 (F := Ideal) c i a1 h1 a2 h2 a3 h3 hc x0 x1 = k2_pay2 (F := Ideal) x0 x1 (k2_pay1 (F := Ideal)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x256) hz, View.readCov_unit_zero (S := S1x256) _ hz]
  simp only [View.readAt_eq_ld, h1.read_unread, h2.read_unread, View.ld_unit_zero (S := S5000x256) hz,
    View.ld_unit_zero (S := S1x256) hz]

/-- The index maps over the grid: the block of rows moves with the point; the shift row and the carried row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Row `p` of the block of rows at point `t` is row `5000 t + p` of the array. -/
theorem blk0_apply (c : Dev nD) (t : Fin cfg2.N) (hN : 5000 * (t.val + 1) ≤ 50000) (p : Fin 5000) (q : Fin 256) :
    iblk2 V c 0 t (ix2 p q) = V c main_v8 (ix2 (BlockSum.pos t.val hN p) q) := by
  obtain ⟨e0, e1, -⟩ := idx_facts t
  show V c main_v8 (((cfg2.win 0).blk t).view.emb (ix2 p q)) = _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 256 + 1 * q.val = q.val; rw [e1]; omega

/-- The shift row's block at any point is the row itself. -/
theorem blk1_apply (c : Dev nD) (t : Fin cfg2.N) (q : Fin 256) :
    iblk2 V c 1 t (ix2 (0 : Fin 1) q) = V c main_v18 (ix2 (0 : Fin 1) q) := by
  obtain ⟨-, -, e2, e3, -⟩ := idx_facts t
  show V c main_v18 (((cfg2.win 1).blk t).view.emb (ix2 (0 : Fin 1) q)) = _
  congr 1
  funext a
  apply Fin.ext
  match a with
  | ⟨0, _⟩ => show win2_1.index t (0 : Fin 2) * 1 + 1 * 0 = 0; rw [e2]
  | ⟨1, _⟩ => show win2_1.index t (1 : Fin 2) * 256 + 1 * q.val = q.val; rw [e3]; omega

/-- The shifted square of the entry at row `e`, column `q`. -/
def sq (a : FVec Ideal Cert.Gcn.TN .f32) (cc : FVec Ideal Cert.Gcn.TR .f32) (q : Fin 256) (e : Fin 50000) : Ideal .f32 :=
  (a (ix2 e q) + cc (ix2 0 q)) * (a (ix2 e q) + cc (ix2 0 q))

/-- The column sums of the shifted squares over the rows below `5000 n`. -/
def below (a : FVec Ideal Cert.Gcn.TN .f32) (cc : FVec Ideal Cert.Gcn.TR .f32) (n : ℕ) : Vec Ideal S1x256 .f32 :=
  fun j => ∑ e ∈ Finset.univ.filter (fun e : Fin 50000 => e.val < 5000 * n ∧ True), sq a cc (j 1) e

/-- The update at point `t` adds, at each column, the shifted squares of rows `5000 t … 5000 t + 4999`. -/
theorem step (c : Dev nD) (t : Fin cfg2.N) (hN : 5000 * (t.val + 1) ≤ 50000) (acc : Vec Ideal S1x256 .f32) (j : S1x256.Idx) :
    k2_pay2 (F := Ideal) (iblk2 V c 0 t) (iblk2 V c 1 t) acc j
      = acc j + ∑ n : Fin 5000, sq (V c main_v8) (V c main_v18) (j 1) (BlockSum.pos t.val hN n) := by
  obtain ⟨u, q, rfl⟩ : ∃ (u : Fin 1) (q : Fin 256), j = ix2 u q := ⟨j 0, j 1, eq_ix2 j⟩
  rw [pay2_apply]
  refine congrArg _ (Finset.sum_congr rfl fun p _ => ?_)
  rw [blk0_apply V c t hN, blk1_apply]
  rfl

/-- One more block: the rows below `5000 (t + 1)` are those below `5000 t` and block `t`'s. -/
theorem below_succ (a : FVec Ideal Cert.Gcn.TN .f32) (cc : FVec Ideal Cert.Gcn.TR .f32) (t : ℕ) (hN : 5000 * (t + 1) ≤ 50000)
    (j : S1x256.Idx) :
    below a cc (t + 1) j = below a cc t j + ∑ n : Fin 5000, sq a cc (j 1) (BlockSum.pos t hN n) := by
  unfold below
  rw [BlockSum.sum_below_succ t hN (fun _ => True) (sq a cc (j 1))]
  refine congrArg _ ?_
  rw [Finset.filter_true_of_mem fun _ _ => trivial]

/-- No row is below `5000 · 0`. -/
theorem below_zero (a : FVec Ideal Cert.Gcn.TN .f32) (cc : FVec Ideal Cert.Gcn.TR .f32) (j : S1x256.Idx) :
    below a cc 0 j = 0 :=
  BlockSum.sum_below_zero (B := 5000) (fun _ => True) (sq a cc (j 1))

/-- After point `n` the carried row holds the column sums over the rows below `5000 (n + 1)`. -/
theorem outsAt_eq (c : Dev nD) : ∀ (n : ℕ) (h : n < cfg2.N),
    outsAt2 (F := Ideal) V c n h = below (V c main_v8) (V c main_v18) (n + 1)
  | 0, h => by
    rw [outsAt2_A V c ⟨0, h⟩ rfl, out_A]
    funext j
    rw [step V c ⟨0, h⟩ (by dsimp only; omega) _ j, below_succ _ _ 0 (by omega) j, zero_apply, below_zero]
  | n + 1, h => by
    have hN : cfg2.N = 10 := N_2
    have hB : ¬(⟨n + 1, h⟩ : Fin cfg2.N).val % 10 = 0 := by dsimp only; omega
    rw [outsAt2_B V c ⟨n + 1, h⟩ hB, out_B]
    funext j
    rw [step V c ⟨n + 1, h⟩ (by dsimp only; omega) _ j, below_succ _ _ (n + 1) (by omega) j]
    refine congrArg₂ (· + ·) ?_ rfl
    show outsAt2 V c n _ j = _
    rw [outsAt_eq c n]

/-- Every row is below `5000 · 10`. -/
theorem below_all (a : FVec Ideal Cert.Gcn.TN .f32) (cc : FVec Ideal Cert.Gcn.TR .f32) :
    below a cc 10 = Cert.Gcn.colsumsq a cc := by
  funext j
  unfold below Cert.Gcn.colsumsq
  rw [BlockSum.sum_below_all (by decide : 5000 * 10 = 50000) (fun _ => True) (sq a cc (j 1)),
    Finset.filter_true_of_mem fun _ _ => trivial]
  rfl

/-- The one write-back, after the last point: the carried row then holds the column sums over all rows, and the
    window's one block, at offsets zero, is the whole row. -/
theorem flushed_eq (c : Dev nD) (t : Fin cfg2.N) (hf : (cfg2.win 2).flush t = true) :
    (dat2 (F := Ideal) V c).flushed 2 t
      = ((cfg2.win 2).blk t).view.read (Elt Ideal) (Cert.Gcn.colsumsq (V c main_v8) (V c main_v18)) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2, outsAt_eq]
  show (cfg2.win 2).cut (grid2.coords t2_9) (below (V c main_v8) (V c main_v18) 10) = _
  rw [below_all]
  have hz' : (fun a => win2_2.index t2_9 a * main_v19.ty.shape.size a) = fun _ => 0 :=
    funext fun a => by fin_cases a <;> decide
  exact (Memref.read_access_unit_zero (Elt Ideal) main_v19 hz' (fun a => by rw [congrFun hz' a]; simp) _).symm

/-- The array the output window ends holding: for each column the sum over all 50000 rows of the shifted squares. -/
theorem final2 (c : Dev nD) :
    (dat2 (F := Ideal) V c).arrAt 2 cfg2.N = Cert.Gcn.colsumsq (V c main_v8) (V c main_v18) :=
  (dat2 V c).arrAt_eq_of_cover 2 _ (flushed_eq V c) fun i =>
    ⟨t2_9, (flush2_2 t2_9).mpr rfl, by
      obtain ⟨-, -, -, -, e4, e5⟩ := idx_facts t2_9
      show i ∈ ((View.whole main_v19).slice (win2_2.rect t2_9)).set
      rw [View.set_slice_whole, Rect.mem_set_unit]
      intro a
      have h0 : (i 0 : Nat) < 1 := (i 0).isLt
      have h1 : (i 1 : Nat) < 256 := (i 1).isLt
      match a with
      | ⟨0, _⟩ =>
        show win2_2.index t2_9 (0 : Fin 2) * 1 ≤ (i 0 : Nat) ∧ (i 0 : Nat) < win2_2.index t2_9 (0 : Fin 2) * 1 + 1
        rw [e4]; omega
      | ⟨1, _⟩ =>
        show win2_2.index t2_9 (1 : Fin 2) * 256 ≤ (i 1 : Nat) ∧ (i 1 : Nat) < win2_2.index t2_9 (1 : Fin 2) * 256 + 256
        rw [e5]; omega⟩

end Cert.KernelIdeal.GcnReg2

end
-- ==== Proof.Reg3.lean ====
/-
  The normalise-and-tanh region as one whole-array function.

  The region walks 25 grid points.  At point t it holds rows 2000 t … 2000 t + 1999 of a 50000×256 array and four whole
  1×256 rows (a shift, two scales, an offset).  It adds the first row to every row of the block, multiplies by the second
  and by the third, adds the fourth, applies tanh, and writes the block back to the same rows of the output.  Read index
  by index the body's arithmetic at entry (p, q) of the block is tanh (((x(p, q) + c(0, q)) · s(0, q)) · w(0, q) + b(0, q));
  entry (p, q) of block t is entry (2000 t + p, q) of the array; and the 25 blocks tile the 50000 rows (row r lies in
  block r / 2000).  So the output array ends holding that expression of a(r, q) and the four rows at every (r, q).
-/
import proofs.«404520_j32255204393746_1_alg».proof.Proof.Gen.KernelIdeal.Frame
import proofs.«404520_j32255204393746_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.GcnReg3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- A 1×256 row repeated down 2000 rows, read at (p, q), is the row's entry at column q. -/
theorem bc_apply (x : Vec Ideal S1x256 .f32) (p : Fin 2000) (q : Fin 256) :
    broadcastTo S2000x256 x broadcasts_S1x256_S2000x256 (ix2 p q) = x (ix2 0 q) :=
  broadcastTo_apply x broadcasts_S1x256_S2000x256 (ix2 p q) (ix2 0 q) (fun a => by fin_cases a <;> rfl)

/-- The body's arithmetic read at one index: shift by a row's entry, scale by two rows' entries, shift by a fourth, tanh —
    each row read at the entry's column (the casts to the same shape are the identity). -/
theorem pay3_apply (x0 : Vec Ideal S2000x256 .f32) (x1 x2 x3 x4 : Vec Ideal S1x256 .f32) (p : Fin 2000) (q : Fin 256) :
    k3_pay1 x0 x1 x2 x3 x4 (ix2 p q)
      = Ideal.tanh (((x0 (ix2 p q) + x1 (ix2 0 q)) * x2 (ix2 0 q)) * x3 (ix2 0 q) + x4 (ix2 0 q)) := by
  unfold k3_pay1
  simp only [shapeCast_self]
  show Ideal.tanh (((x0 (ix2 p q) + broadcastTo S2000x256 x1 broadcasts_S1x256_S2000x256 (ix2 p q))
        * broadcastTo S2000x256 x2 broadcasts_S1x256_S2000x256 (ix2 p q))
        * broadcastTo S2000x256 x3 broadcasts_S1x256_S2000x256 (ix2 p q)
        + broadcastTo S2000x256 x4 broadcasts_S1x256_S2000x256 (ix2 p q)) = _
  rw [bc_apply x1 p q, bc_apply x2 p q, bc_apply x3 p q, bc_apply x4 p q]

/-- The index maps over the 25 grid points: the row-block windows sit at block (t, 0), the four rows at block (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Row p of block t is row 2000 t + p of the 50000 rows. -/
theorem row_lt (t : Fin cfg3.N) (p : Fin 2000) : t.val * 2000 + p.val < 50000 := by
  have ht : t.val < 25 := t.isLt
  have hp : p.val < 2000 := p.isLt
  omega

/-- Entry (p, q) of the output's block t sits at (2000 t + p, q). -/
theorem emb3_5 (t : Fin cfg3.N) (p : Fin 2000) (q : Fin 256) :
    ((cfg3.win 5).blk t).view.emb (ix2 p q) = (ix2 ⟨t.val * 2000 + p.val, row_lt t p⟩ q : S50000x256.Idx) := by
  obtain ⟨-, -, -, -, -, -, -, -, -, -, e10, e11⟩ := idx_facts3 t
  funext a; apply Fin.ext
  match a with
  | ⟨0, _⟩ => show win3_5.index t (0 : Fin 2) * 2000 + 1 * p.val = t.val * 2000 + p.val; omega
  | ⟨1, _⟩ => show win3_5.index t (1 : Fin 2) * 256 + 1 * q.val = q.val; omega

/-- Entry (p, q) of the input's block t sits at (2000 t + p, q) too. -/
theorem emb3_0 (t : Fin cfg3.N) (p : Fin 2000) (q : Fin 256) :
    ((cfg3.win 0).blk t).view.emb (ix2 p q) = (ix2 ⟨t.val * 2000 + p.val, row_lt t p⟩ q : S50000x256.Idx) := by
  obtain ⟨e0, e1, -⟩ := idx_facts3 t
  funext a; apply Fin.ext
  match a with
  | ⟨0, _⟩ => show win3_0.index t (0 : Fin 2) * 2000 + 1 * p.val = t.val * 2000 + p.val; omega
  | ⟨1, _⟩ => show win3_0.index t (1 : Fin 2) * 256 + 1 * q.val = q.val; omega

/-- The shift row's block is the whole row at every point: entry (0, q) sits at (0, q). -/
theorem emb3_1 (t : Fin cfg3.N) (q : Fin 256) :
    ((cfg3.win 1).blk t).view.emb (ix2 0 q) = (ix2 0 q : S1x256.Idx) := by
  obtain ⟨-, -, e2, e3, e4, e5, e6, e7, e8, e9, -⟩ := idx_facts3 t
  funext a; apply Fin.ext
  match a with
  | ⟨0, _⟩ => show win3_1.index t (0 : Fin 2) * 1 + 1 * 0 = 0; omega
  | ⟨1, _⟩ => show win3_1.index t (1 : Fin 2) * 256 + 1 * q.val = q.val; omega

/-- The scale row's block is the whole row at every point: entry (0, q) sits at (0, q). -/
theorem emb3_2 (t : Fin cfg3.N) (q : Fin 256) :
    ((cfg3.win 2).blk t).view.emb (ix2 0 q) = (ix2 0 q : S1x256.Idx) := by
  obtain ⟨-, -, e2, e3, e4, e5, e6, e7, e8, e9, -⟩ := idx_facts3 t
  funext a; apply Fin.ext
  match a with
  | ⟨0, _⟩ => show win3_2.index t (0 : Fin 2) * 1 + 1 * 0 = 0; omega
  | ⟨1, _⟩ => show win3_2.index t (1 : Fin 2) * 256 + 1 * q.val = q.val; omega

/-- The weight row's block is the whole row at every point: entry (0, q) sits at (0, q). -/
theorem emb3_3 (t : Fin cfg3.N) (q : Fin 256) :
    ((cfg3.win 3).blk t).view.emb (ix2 0 q) = (ix2 0 q : S1x256.Idx) := by
  obtain ⟨-, -, e2, e3, e4, e5, e6, e7, e8, e9, -⟩ := idx_facts3 t
  funext a; apply Fin.ext
  match a with
  | ⟨0, _⟩ => show win3_3.index t (0 : Fin 2) * 1 + 1 * 0 = 0; omega
  | ⟨1, _⟩ => show win3_3.index t (1 : Fin 2) * 256 + 1 * q.val = q.val; omega

/-- The offset row's block is the whole row at every point: entry (0, q) sits at (0, q). -/
theorem emb3_4 (t : Fin cfg3.N) (q : Fin 256) :
    ((cfg3.win 4).blk t).view.emb (ix2 0 q) = (ix2 0 q : S1x256.Idx) := by
  obtain ⟨-, -, e2, e3, e4, e5, e6, e7, e8, e9, -⟩ := idx_facts3 t
  funext a; apply Fin.ext
  match a with
  | ⟨0, _⟩ => show win3_4.index t (0 : Fin 2) * 1 + 1 * 0 = 0; omega
  | ⟨1, _⟩ => show win3_4.index t (1 : Fin 2) * 256 + 1 * q.val = q.val; omega

/-- Equal operands give equal results of shift, scale, scale, shift, tanh. -/
theorem norm_congr {a a' d d' s s' w w' b b' : EReal} (ha : a = a') (hd : d = d') (hs : s = s') (hw : w = w') (hb : b = b') :
    Ideal.tanh (((a + d) * s) * w + b) = Ideal.tanh (((a' + d') * s') * w' + b') := by
  rw [ha, hd, hs, hw, hb]

/-- What grid point t writes back is block t of the whole-array function: at entry (p, q) of the block the body reads the
    input at (2000 t + p, q) and each of the four rows at column q, which is the function's value at (2000 t + p, q). -/
theorem flushed3_eq (c : Dev nD) (t : Fin cfg3.N) :
    (dat3 (F := Ideal) V c).flushed 5 t = ((cfg3.win 5).blk t).view.read (Elt Ideal)
      (Cert.Gcn.norm (V c main_v8) (V c main_v18) (V c main_v24) (V c main_v11) (V c main_v12)) := by
  show (cfg3.win 5).cut (grid3.coords t) ((dat3 V c).after 5 t) = _
  rw [after3_5]
  unfold out3_5
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  show k3_pay1 (iblk3 V c 0 t) (iblk3 V c 1 t) (iblk3 V c 2 t) (iblk3 V c 3 t) (iblk3 V c 4 t) (ix2 p q)
    = Cert.Gcn.norm (V c main_v8) (V c main_v18) (V c main_v24) (V c main_v11) (V c main_v12) (((cfg3.win 5).blk t).view.emb (ix2 p q))
  rw [emb3_5 t p q]
  refine (pay3_apply _ _ _ _ _ p q).trans ?_
  exact norm_congr (congrArg (V c main_v8) (emb3_0 t p q)) (congrArg (V c main_v18) (emb3_1 t q))
    (congrArg (V c main_v24) (emb3_2 t q)) (congrArg (V c main_v11) (emb3_3 t q)) (congrArg (V c main_v12) (emb3_4 t q))

/-- An index is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v25).slice (win3_5.rect t)).set ↔ _
  rw [View.set_slice_whole, Rect.mem_set_unit]
  exact Iff.rfl

/-- The 25 blocks of 2000 rows tile the 50000 rows: row r is in block r / 2000. -/
theorem covered3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have ht : (i 0).val / 2000 < 25 := by omega
  refine ⟨⟨(i 0).val / 2000, ht⟩, flush3_5 _, ?_⟩
  rw [mem_blk3]
  obtain ⟨-, -, -, -, -, -, -, -, -, -, e10, e11⟩ := idx_facts3 ⟨(i 0).val / 2000, ht⟩
  intro a
  match a with
  | ⟨0, _⟩ => show win3_5.index ⟨(i 0).val / 2000, ht⟩ (0 : Fin 2) * 2000 ≤ (i 0).val ∧ (i 0).val < win3_5.index ⟨(i 0).val / 2000, ht⟩ (0 : Fin 2) * 2000 + 2000; rw [e10]; show (i 0).val / 2000 * 2000 ≤ (i 0).val ∧ (i 0).val < (i 0).val / 2000 * 2000 + 2000; omega
  | ⟨1, _⟩ => show win3_5.index ⟨(i 0).val / 2000, ht⟩ (1 : Fin 2) * 256 ≤ (i 1).val ∧ (i 1).val < win3_5.index ⟨(i 0).val / 2000, ht⟩ (1 : Fin 2) * 256 + 256; rw [e11]; omega

/-- The region's value: the output array ends holding, at every index, tanh of the input's entry shifted, scaled twice and
    shifted again by the four rows' entries of its column. -/
theorem final3 (c : Dev nD) :
    (dat3 (F := Ideal) V c).arrAt 5 cfg3.N = Cert.Gcn.norm (V c main_v8) (V c main_v18) (V c main_v24) (V c main_v11) (V c main_v12) :=
  (dat3 (F := Ideal) V c).arrAt_eq_of_cover 5 _ (fun t _ => flushed3_eq V c t) covered3

end Cert.KernelIdeal.GcnReg3

end
-- ==== Proof.Reg4.lean ====
/-
  Region 4: the second layer's row-blocked matrix product.

  The 50000×256 array of normalised features is cut into ten blocks of 5000 rows; grid point t reads row block t of
  it and the whole 256×256 second matrix, and writes row block t of the result.  The body first reshapes its left block
  to the shape it already has, which changes nothing; then entry (p, q) of the block's result is the contraction sum
  over k < 256 of left(p, k) · matrix(k, q), since over the extended reals a change of number format is the identity
  and a product accumulated into zero is the plain sum.  Row p of block t is row t · 5000 + p of the array and the
  ten blocks tile the rows, so the result array ends holding, at (r, j), the sum over k of left(r, k) · matrix(k, j).
-/
import proofs.«404520_j32255204393746_1_alg».proof.Proof.Gen.KernelIdeal.Frame
import proofs.«404520_j32255204393746_1_alg».proof.Proof.Spec
import proofs.«404520_j32255204393746_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.GcnReg4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry of a block -/

/-- Entry (p, q) of the body's result is the sum over k < 256 of x(p, k) · w(k, q): the reshape to the same shape is
    the identity, the format changes are the identity over the extended reals, the accumulator is zero, and the
    contraction index is the number k. -/
theorem pay_apply (x : Vec Ideal S5000x256 .f32) (w : Vec Ideal S256x256 .f32) (p : Fin 5000) (q : Fin 256) :
    k4_pay1 (F := Ideal) x w (ix2 p q) = ∑ k : Fin 256, x (ix2 p k) * w (ix2 k q) := by
  unfold k4_pay1
  rw [shapeCast_self x shapeCasts_S5000x256_S5000x256]
  refine (Ideal.matmul_constant_zero_apply dot_S5000x256_S256x256_S5000x256_1_0_0_1_n_n none _ _ (ix2 p q)).trans ?_
  exact PlainDot.sum_eq (R := 5000) (K := 256) (C := 256) dot_S5000x256_S256x256_S5000x256_1_0_0_1_n_n
    rfl rfl rfl rfl rfl rfl _ _ p q

/-! ## Where each block sits in its array -/

theorem hz : (![0, 0] : Fin 2 → Nat) = fun _ => 0 := funext fun a => by fin_cases a <;> rfl

/-- The three index maps, over the ten grid points: the feature array's and the result's block index is (t, 0), the
    matrix's is (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-! ## What a grid point writes back -/

/-- Point t writes back row block t of the product of the two arrays the region finds.  Entry (p, q) of the block is
    the sum over k of the feature block's (p, k) times the matrix block's (k, q); the feature block's row p is the
    array's row t · 5000 + p, which is also the row of the result block's entry, and the matrix block is the whole
    matrix. -/
theorem flushed_eq (c : Dev nD) (t : Fin cfg4.N) :
    (dat4 (F := Ideal) V c).flushed 2 t
      = ((cfg4.win 2).blk t).view.read (Elt Ideal) (Cert.Gcn.lin (V c main_v25) (V c main_arg4)) := by
  show (cfg4.win 2).cut (grid4.coords t) ((dat4 V c).after 2 t) = _
  rw [after4_2]
  unfold out4_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k4_pay1 (F := Ideal) (iblk4 V c 0 t) (iblk4 V c 1 t) (ix2 p q)
      = Cert.Gcn.lin (V c main_v25) (V c main_arg4) (((cfg4.win 2).blk t).view.emb (ix2 p q))
  rw [pay_apply]
  unfold Cert.Gcn.lin
  refine Finset.sum_congr rfl fun k _ => ?_
  -- the feature block's (p, k) is the feature array at (row of the result entry, k)
  have hx : iblk4 V c 0 t (ix2 p k) = V c main_v25 (ix2 ((((cfg4.win 2).blk t).view.emb (ix2 p q)) 0) k) := by
    show V c main_v25 (((cfg4.win 0).blk t).view.emb (ix2 p k)) = _
    congr 1
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 256 + 1 * k.val = k.val; omega
  -- the matrix block's (k, q) is the matrix at (k, column of the result entry)
  have hw : iblk4 V c 1 t (ix2 k q) = V c main_arg4 (ix2 k ((((cfg4.win 2).blk t).view.emb (ix2 p q)) 1)) := by
    show V c main_arg4 (((cfg4.win 1).blk t).view.emb (ix2 k q)) = _
    congr 1
    funext a; apply Fin.ext
    match a with
    | ⟨0, _⟩ => show win4_1.index t (0 : Fin 2) * 256 + 1 * k.val = k.val; omega
    | ⟨1, _⟩ => show win4_1.index t (1 : Fin 2) * 256 + 1 * q.val = win4_2.index t (1 : Fin 2) * 256 + 1 * q.val; omega
  rw [hx, hw]

/-! ## The blocks tile the result -/

/-- An index of the result is in point t's block iff each coordinate is in the block's range on its axis. -/
theorem mem_blk (t : Fin cfg4.N) (i : S50000x256.Idx) :
    i ∈ ((cfg4.win 2).blk t).view.set ↔ ∀ a : Fin 2, win4_2.index t a * S5000x256.size a ≤ (i a).val
      ∧ (i a).val < win4_2.index t a * S5000x256.size a + S5000x256.size a := by
  show i ∈ ((View.whole main_v26).slice (win4_2.rect t)).set ↔ _
  rw [View.set_slice_whole, Rect.mem_set_unit]
  exact Iff.rfl

/-- Every index of the result is in some point's block: row r is in block r / 5000. -/
theorem cover (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ : ∃ t : Fin cfg4.N, t.val = (i 0).val / 5000 :=
    ⟨⟨(i 0).val / 5000, by show (i 0).val / 5000 < 10; omega⟩, rfl⟩
  obtain ⟨-, -, -, -, e4, e5⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 256 ≤ (i 1).val ∧ (i 1).val < win4_2.index t (1 : Fin 2) * 256 + 256
    omega

/-! ## The region's value -/

/-- The result array ends holding the product of the two arrays the region finds, entry by entry. -/
theorem final4 (c : Dev nD) :
    (dat4 (F := Ideal) V c).arrAt 2 cfg4.N = Cert.Gcn.lin (V c main_v25) (V c main_arg4) :=
  (dat4 (F := Ideal) V c).arrAt_eq_of_cover 2 _ (fun t _ => flushed_eq V c t) cover

end Cert.KernelIdeal.GcnReg4

end
-- ==== Proof.Reg5.lean ====
/-
  The bias-and-tanh region as one whole-array function.

  The region walks 25 grid points.  At point t it holds rows 2000 t … 2000 t + 1999 of a 50000×256 array and the whole
  1×256 bias row, adds the row to every row of the block, applies tanh, and writes the block back to the same rows of the
  output.  Read index by index the body's arithmetic at entry (p, q) of the block is tanh (x(p, q) + b(0, q)); entry (p, q)
  of block t is entry (2000 t + p, q) of the array; and the 25 blocks tile the 50000 rows (row r lies in block r / 2000).
  So the output array ends holding tanh (a(r, q) + b(0, q)) at every (r, q).
-/
import proofs.«404520_j32255204393746_1_alg».proof.Proof.Gen.KernelIdeal.Frame
import proofs.«404520_j32255204393746_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.GcnReg5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The body's arithmetic read at one index: the row block's entry plus the bias row's entry of the same column, through tanh
    (the casts to the same shape are the identity; the broadcast of the 1×256 row reads its column). -/
theorem pay5_apply (x0 : Vec Ideal S2000x256 .f32) (x1 : Vec Ideal S1x256 .f32) (p : Fin 2000) (q : Fin 256) :
    k5_pay1 x0 x1 (ix2 p q) = Ideal.tanh (x0 (ix2 p q) + x1 (ix2 0 q)) := by
  unfold k5_pay1
  rw [shapeCast_self, shapeCast_self]
  show Ideal.tanh (x0 (ix2 p q) + broadcastTo S2000x256 x1 broadcasts_S1x256_S2000x256 (ix2 p q)) = _
  rw [broadcastTo_apply x1 broadcasts_S1x256_S2000x256 (ix2 p q) (ix2 0 q) (fun a => by fin_cases a <;> rfl)]

/-- The index maps over the 25 grid points: the row-block windows sit at block (t, 0), the bias row at block (0, 0). -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Row p of block t is row 2000 t + p of the 50000 rows. -/
theorem row_lt (t : Fin cfg5.N) (p : Fin 2000) : t.val * 2000 + p.val < 50000 := by
  have ht : t.val < 25 := t.isLt
  have hp : p.val < 2000 := p.isLt
  omega

/-- Entry (p, q) of the output's block t sits at (2000 t + p, q). -/
theorem emb5_2 (t : Fin cfg5.N) (p : Fin 2000) (q : Fin 256) :
    ((cfg5.win 2).blk t).view.emb (ix2 p q) = (ix2 ⟨t.val * 2000 + p.val, row_lt t p⟩ q : S50000x256.Idx) := by
  obtain ⟨e0, e1, e2, e3, e4, e5⟩ := idx_facts5 t
  funext a; apply Fin.ext
  match a with
  | ⟨0, _⟩ => show win5_2.index t (0 : Fin 2) * 2000 + 1 * p.val = t.val * 2000 + p.val; omega
  | ⟨1, _⟩ => show win5_2.index t (1 : Fin 2) * 256 + 1 * q.val = q.val; omega

/-- Entry (p, q) of the input's block t sits at (2000 t + p, q) too. -/
theorem emb5_0 (t : Fin cfg5.N) (p : Fin 2000) (q : Fin 256) :
    ((cfg5.win 0).blk t).view.emb (ix2 p q) = (ix2 ⟨t.val * 2000 + p.val, row_lt t p⟩ q : S50000x256.Idx) := by
  obtain ⟨e0, e1, e2, e3, e4, e5⟩ := idx_facts5 t
  funext a; apply Fin.ext
  match a with
  | ⟨0, _⟩ => show win5_0.index t (0 : Fin 2) * 2000 + 1 * p.val = t.val * 2000 + p.val; omega
  | ⟨1, _⟩ => show win5_0.index t (1 : Fin 2) * 256 + 1 * q.val = q.val; omega

/-- The bias row's block is the whole row at every point: entry (0, q) sits at (0, q). -/
theorem emb5_1 (t : Fin cfg5.N) (q : Fin 256) :
    ((cfg5.win 1).blk t).view.emb (ix2 0 q) = (ix2 0 q : S1x256.Idx) := by
  obtain ⟨e0, e1, e2, e3, e4, e5⟩ := idx_facts5 t
  funext a; apply Fin.ext
  match a with
  | ⟨0, _⟩ => show win5_1.index t (0 : Fin 2) * 1 + 1 * 0 = 0; omega
  | ⟨1, _⟩ => show win5_1.index t (1 : Fin 2) * 256 + 1 * q.val = q.val; omega

/-- Equal summands give equal tanh of the sum. -/
theorem tanh_add_congr {a a' b b' : EReal} (ha : a = a') (hb : b = b') : Ideal.tanh (a + b) = Ideal.tanh (a' + b') := by
  rw [ha, hb]

/-- What grid point t writes back is block t of the whole-array function: at entry (p, q) of the block the body adds the
    input's entry at (2000 t + p, q) and the bias row's entry at column q and applies tanh, which is the function's value at (2000 t + p, q). -/
theorem flushed5_eq (c : Dev nD) (t : Fin cfg5.N) :
    (dat5 (F := Ideal) V c).flushed 2 t = ((cfg5.win 2).blk t).view.read (Elt Ideal) (Cert.Gcn.biasTanh (V c main_v30) (V c main_v31)) := by
  show (cfg5.win 2).cut (grid5.coords t) ((dat5 V c).after 2 t) = _
  rw [after5_2]
  unfold out5_2
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  show k5_pay1 (iblk5 V c 0 t) (iblk5 V c 1 t) (ix2 p q) = Cert.Gcn.biasTanh (V c main_v30) (V c main_v31) (((cfg5.win 2).blk t).view.emb (ix2 p q))
  rw [emb5_2 t p q]
  refine (pay5_apply _ _ p q).trans ?_
  exact tanh_add_congr (congrArg (V c main_v30) (emb5_0 t p q)) (congrArg (V c main_v31) (emb5_1 t q))

/-- An index is in point t's block iff each coordinate is in the block's range on its axis. -/
theorem mem_blk5 (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v32).slice (win5_2.rect t)).set ↔ _
  rw [View.set_slice_whole, Rect.mem_set_unit]
  exact Iff.rfl

/-- The 25 blocks of 2000 rows tile the 50000 rows: row r is in block r / 2000. -/
theorem covered5 (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  have ht : (i 0).val / 2000 < 25 := by omega
  refine ⟨⟨(i 0).val / 2000, ht⟩, flush5_2 _, ?_⟩
  rw [mem_blk5]
  obtain ⟨e0, e1, e2, e3, e4, e5⟩ := idx_facts5 ⟨(i 0).val / 2000, ht⟩
  intro a
  match a with
  | ⟨0, _⟩ => show win5_2.index ⟨(i 0).val / 2000, ht⟩ (0 : Fin 2) * 2000 ≤ (i 0).val ∧ (i 0).val < win5_2.index ⟨(i 0).val / 2000, ht⟩ (0 : Fin 2) * 2000 + 2000; rw [e4]; show (i 0).val / 2000 * 2000 ≤ (i 0).val ∧ (i 0).val < (i 0).val / 2000 * 2000 + 2000; omega
  | ⟨1, _⟩ => show win5_2.index ⟨(i 0).val / 2000, ht⟩ (1 : Fin 2) * 256 ≤ (i 1).val ∧ (i 1).val < win5_2.index ⟨(i 0).val / 2000, ht⟩ (1 : Fin 2) * 256 + 256; rw [e5]; omega

/-- The region's value: the output array ends holding, at every index, tanh of the input's entry plus the bias row's entry of its column. -/
theorem final5 (c : Dev nD) :
    (dat5 (F := Ideal) V c).arrAt 2 cfg5.N = Cert.Gcn.biasTanh (V c main_v30) (V c main_v31) :=
  (dat5 (F := Ideal) V c).arrAt_eq_of_cover 2 _ (fun t _ => flushed5_eq V c t) covered5

end Cert.KernelIdeal.GcnReg5

end
-- ==== Proof.RefRun.lean ====
/-
  The reference's result as one function of its arguments.

  The reference is a straight line of host operations, and its run ends with the result buffer at the operations'
  composed term of the argument arrays.  That term is Spec.lean's refF: the same operations in the same order,
  compared at an abstract instance of the float operations and then read at the extended reals.
-/
import proofs.«404520_j32255204393746_1_alg».proof.Proof.Gen.ReferenceIdeal.Run
import proofs.«404520_j32255204393746_1_alg».proof.Proof.Spec
import proofs.«404520_j32255204393746_1_alg».proof.Proof.SpecG

set_option maxRecDepth 16384

noncomputable section

namespace Cert.ReferenceIdeal.GcnRef

open Cert.ReferenceIdeal Cert.ReferenceIdeal.Value Idealize.ShloMosaic Idealize.ShloMosaic.TcCoe Idealize.SL.Sem

/-- The composed term of the reference's operations is refF of the arguments, at any instance. -/
theorem res_eq {F : FTy → Type} [FloatOps F] (m : (ℓ : Loc nD τ sig) → Buf (Elt F) ℓ) (c : Dev nD) :
    res_main_v61 m c = GcnG.refF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold res_main_v61
  rfl

/-- At the extended reals. -/
theorem res_eq_ideal (m : (ℓ : Loc nD τ sig) → Buf (Elt Ideal) ℓ) (c : Dev nD) :
    res_main_v61 m c = Gcn.refF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) :=
  (res_eq m c).trans (GcnG.refF_eq _ _ _ _ _ _ _ _ _)

end Cert.ReferenceIdeal.GcnRef

end
-- ==== Proof.NormLaw.lean ====
/-
  The law that joins the two normalisations, over the extended reals with every entry a real number.

  The kernel folds the column mean into one shift row, c = b − (∑a/N + b)·ms, sums the squares of a + c down each
  column, and multiplies by the reciprocal square root of (that sum)/N + ε.  The reference adds the bias first,
  y = a + b, takes the column mean (0 + ∑y)/N, centres d = y − mean·ms, takes (0 + ∑d·d)/N + ε, and divides by its
  square root.  Over the reals ∑(a + b) = ∑a + N·b, so mean = ∑a/N + b and a + c = d entry by entry; the two
  sums of squares are then one sum; (that sum)/N + ε is positive because ε is, and for v > 0, x · rsqrt v = x / sqrt v.

  First the law at one column for an abstract finite family of reals; then each array operation read at an index;
  then the two sides, index by index, are the two sides of the column law.
-/
import proofs.«404520_j32255204393746_1_alg».proof.Proof.Spec
import Idealize.ShloMosaic.PureOps.Ideal.Laws
import Idealize.ShloMosaic.Lib.ValueLayout
import Idealize.ShloMosaic.Lib.KernelVsHost
import Idealize.ShloMosaic.Lib.IdealHost

noncomputable section

open Idealize.ShloMosaic Idealize.ShloMosaic.ValueIdx Cert.Gcn

namespace Cert.Gcn

def IsReal {s : Shape} (x : s.Idx → EReal) : Prop := ∀ i, ∃ r : ℝ, x i = (r : EReal)

/-- The reference's normalisation of y, scaled, shifted, through tanh. -/
def normR (y : FVec Ideal TN .f32) (gw gb gms : FVec Ideal TV .f32) : FVec Ideal TN .f32 :=
  let d := subf (F := Ideal) y (down (mulf (F := Ideal) (meanR y) (rowB gms)))
  let sd := Host.sqrt (F := Ideal) (addf (F := Ideal) (meanR (mulf (F := Ideal) d d)) (splatR 0x3727C5AC#32))
  Host.tanh (F := Ideal) (addf (F := Ideal) (mulf (F := Ideal) (Host.divf (F := Ideal) d (down sd)) (down (rowB gw))) (down (rowB gb)))

namespace NormLaw

/-! ## Reals inside the extended reals -/

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert _ _ h ih => rw [Finset.sum_insert h, Finset.sum_insert h, EReal.coe_add, ih]

/-- The divisor's pattern denotes the number of nodes, 50000. -/
theorem ofBits_N : Ideal.ofBits .f32 0x47435000#32 = ((50000 : ℝ) : EReal) := by
  simp [Ideal.ofBits, Ideal.ieee, -EReal.coe_mul]; norm_num

/-- The pattern added to the variance denotes a positive real. -/
theorem ofBits_eps : ∃ e : ℝ, 0 < e ∧ Ideal.ofBits .f32 0x3727C5AC#32 = (e : EReal) := by
  refine ⟨1 * ((2 ^ 23 + 2606508 : ℕ) : ℝ) * (2 : ℝ) ^ ((110 : ℤ) - (2 ^ (8 - 1) - 1) - 23), by positivity, ?_⟩
  simp [Ideal.ofBits, Ideal.ieee, -EReal.coe_mul]

/-- The zero pattern denotes 0. -/
theorem ofBits_0 : Ideal.ofBits .f32 0x00000000#32 = 0 := by simp [Ideal.ofBits, Ideal.ieee]

/-! ## The law at one column, over the reals

  For a column of n reals A (n the real N, not zero), a bias B, a mean scale M, a weight W, a shift G and a
  positive e: the folded shift is c = B − (∑A/N + B)·M, and A r + c is the centred entry (A r + B) − mean·M
  with mean = ∑(A + B)/N = ∑A/N + B; the two variances are the same sum of squares over N; and
  for v > 0, x · rsqrt v = x / sqrt v. -/

theorem scalar_law {n : ℕ} (N : ℝ) (hn : (n : ℝ) = N) (hN : 0 < N) (A : Fin n → ℝ) (B M W G e : ℝ) (he : 0 < e) (r : Fin n)
    (cc inv mean sd : EReal) (d : Fin n → EReal)
    (hcc : cc = (B : EReal) - (Ideal.div (∑ k, (A k : EReal)) (N : EReal) + B) * M)
    (hinv : inv = Ideal.rsqrt (Ideal.div (∑ k, ((A k : EReal) + cc) * ((A k : EReal) + cc)) (N : EReal) + e))
    (hmean : mean = Ideal.div (0 + ∑ k, ((A k : EReal) + B)) (N : EReal))
    (hd : ∀ k, d k = ((A k : EReal) + B) - mean * M)
    (hsd : sd = Ideal.sqrt (Ideal.div (0 + ∑ k, d k * d k) (N : EReal) + e)) :
    Ideal.tanh ((((A r : EReal) + cc) * inv) * W + G) = Ideal.tanh (Ideal.div (d r) sd * W + G) := by
  have hN0 : N ≠ 0 := hN.ne'
  -- the folded shift is a real
  have hcc' : cc = ((B - ((∑ k, A k) * (1 / N) + B) * M : ℝ) : EReal) := by
    rw [hcc, ← coe_sum, Ideal.div_coe hN0]
    simp only [EReal.coe_sub, EReal.coe_mul, EReal.coe_add]
  generalize hc : (B - ((∑ k, A k) * (1 / N) + B) * M : ℝ) = c at hcc'
  -- the sum of squares is a real, not negative
  have hQ : (∑ k, ((A k : EReal) + cc) * ((A k : EReal) + cc)) = ((∑ k, (A k + c) * (A k + c) : ℝ) : EReal) := by
    rw [coe_sum, hcc']
    exact Finset.sum_congr rfl fun k _ => by rw [← EReal.coe_add, ← EReal.coe_mul]
  have hQ0 : 0 ≤ ∑ k, (A k + c) * (A k + c) := Finset.sum_nonneg fun k _ => mul_self_nonneg _
  generalize (∑ k, (A k + c) * (A k + c) : ℝ) = Q at hQ hQ0
  have hv : 0 < Q * (1 / N) + e := by positivity
  -- the kernel's reciprocal standard deviation
  have hinv' : inv = (((Real.sqrt (Q * (1 / N) + e))⁻¹ : ℝ) : EReal) := by
    rw [hinv, hQ, Ideal.div_coe hN0, ← EReal.coe_mul, ← EReal.coe_add, Ideal.rsqrt_coe, if_neg (not_lt.mpr hv.le),
      if_neg hv.ne']
  -- the reference's mean
  have hmean' : mean = (((∑ k, A k) * (1 / N) + B : ℝ) : EReal) := by
    have hs : (∑ k, ((A k : EReal) + B)) = (((∑ k, A k) + N * B : ℝ) : EReal) := by
      have : (∑ k, (A k + B) : ℝ) = (∑ k, A k) + N * B := by
        rw [Finset.sum_add_distrib, Finset.sum_const, Finset.card_univ, Fintype.card_fin, nsmul_eq_mul, hn]
      rw [← this, coe_sum]
      exact Finset.sum_congr rfl fun k _ => by rw [EReal.coe_add]
    rw [hmean, zero_add, hs, Ideal.div_coe hN0, ← EReal.coe_mul]
    congr 1
    field_simp
  -- the centred entry is the shifted entry
  have hd' : ∀ k, d k = ((A k + c : ℝ) : EReal) := by
    intro k
    rw [hd k, hmean', ← EReal.coe_add, ← EReal.coe_mul, ← EReal.coe_sub, ← hc]
    congr 1
    ring
  -- the reference's standard deviation
  have hQ' : (∑ k, d k * d k) = (Q : EReal) := by
    rw [← hQ, hcc']
    exact Finset.sum_congr rfl fun k _ => by rw [hd' k, EReal.coe_add]
  have hsd' : sd = ((Real.sqrt (Q * (1 / N) + e) : ℝ) : EReal) := by
    rw [hsd, zero_add, hQ', Ideal.div_coe hN0, ← EReal.coe_mul, ← EReal.coe_add, Ideal.sqrt_coe, if_neg (not_lt.mpr hv.le)]
  have hs0 : Real.sqrt (Q * (1 / N) + e) ≠ 0 := (Real.sqrt_pos.mpr hv).ne'
  rw [hd' r, hsd', Ideal.div_coe hs0, hcc', hinv', EReal.coe_add]
  simp only [one_div]

/-! ## The array operations read at an index -/

/-- A vector reshaped to a row reads the vector. -/
theorem rowOf_apply (v : FVec Ideal TV .f32) (u : Fin 1) (j : Fin 256) : rowOf v (ix2 u j) = v (ix1 j) :=
  shapeCast_a_1a_apply v casts_V_R u j

/-- A vector broadcast to a row reads the vector. -/
theorem rowB_apply (v : FVec Ideal TV .f32) (u : Fin 1) (j : Fin 256) : rowB v (ix2 u j) = v (ix1 j) := by
  refine broadcastInDim_apply ![1] bc_V_R v (ix2 u j) (ix1 j) fun a => ?_
  match a with
  | ⟨0, _⟩ => rfl

/-- A row repeated down the nodes reads the row. -/
theorem down_apply (x : FVec Ideal TR .f32) (r : Fin 50000) (j : Fin 256) : down x (ix2 r j) = x (ix2 (0 : Fin 1) j) :=
  broadcastInDim_oneRow_apply bc_R_N x r j

/-- A splat row reads what its pattern denotes. -/
theorem splatR_apply (b : BitVec 32) (i : TR.Idx) : splatR b i = Ideal.ofBits .f32 b :=
  broadcastInDim_scalar_apply bc_0_R _ i

theorem red_N_V' : TN.Reduces [0] TV := by decide

/-- The host's column sum from zero, read at a column, is zero plus the sum down the column. -/
theorem reduceAdd_apply (y : FVec Ideal TN .f32) (j : Fin 256) :
    Host.reduceAdd (F := Ideal) (φ := .f32) y (constant (F := Ideal) T0 .f32 0x00000000#32) red_N_V h0 (ix1 j)
      = 0 + ∑ r : Fin 50000, y (ix2 r j) := by
  refine (Ideal.hostReduceAdd_single red_N_V red_N_V' y _ (ix1 j)).trans ?_
  refine congrArg₂ (· + ·) ofBits_0 ?_
  refine Finset.sum_congr rfl fun k _ => congrArg y ?_
  funext a
  match a with
  | ⟨0, _⟩ => rfl
  | ⟨1, _⟩ => rfl

/-- The column mean read at a column. -/
theorem meanR_apply (y : FVec Ideal TN .f32) (u : Fin 1) (j : Fin 256) :
    meanR y (ix2 u j) = Ideal.div (0 + ∑ r : Fin 50000, y (ix2 r j)) ((50000 : ℝ) : EReal) := by
  show Ideal.div (rowB _ (ix2 u j)) (splatR _ (ix2 u j)) = _
  rw [rowB_apply, reduceAdd_apply, splatR_apply, ofBits_N]

/-- The kernel's shift row read at a column. -/
theorem shiftRow_apply (s b ms : FVec Ideal TR .f32) (i : TR.Idx) :
    shiftRow s b ms i = b i - (Ideal.div (s i) ((50000 : ℝ) : EReal) + b i) * ms i := by
  show b i - (Ideal.div (s i) (splatR _ i) + b i) * ms i = _
  rw [splatR_apply, ofBits_N]

/-- The kernel's reciprocal standard deviation read at a column. -/
theorem invStd_apply (q : FVec Ideal TR .f32) (i : TR.Idx) :
    invStd q i = Ideal.rsqrt (Ideal.div (q i) ((50000 : ℝ) : EReal) + Ideal.ofBits .f32 0x3727C5AC#32) := by
  show Ideal.rsqrt (Ideal.div (q i) (splatR _ i) + splatR _ i) = _
  rw [splatR_apply, splatR_apply, ofBits_N]

/-- The reference's centred entries: y less the scaled column mean. -/
def cenR (y : FVec Ideal TN .f32) (gms : FVec Ideal TV .f32) : FVec Ideal TN .f32 :=
  subf (F := Ideal) y (down (mulf (F := Ideal) (meanR y) (rowB gms)))

/-- The reference's standard deviation row of centred entries d. -/
def sdR (d : FVec Ideal TN .f32) : FVec Ideal TR .f32 :=
  Host.sqrt (F := Ideal) (addf (F := Ideal) (meanR (mulf (F := Ideal) d d)) (splatR 0x3727C5AC#32))

theorem cenR_apply (y : FVec Ideal TN .f32) (gms : FVec Ideal TV .f32) (r : Fin 50000) (j : Fin 256) :
    cenR y gms (ix2 r j) = y (ix2 r j) - meanR y (ix2 (0 : Fin 1) j) * gms (ix1 j) := by
  show y (ix2 r j) - down (mulf (F := Ideal) (meanR y) (rowB gms)) (ix2 r j) = _
  rw [down_apply]
  show _ - meanR y (ix2 (0 : Fin 1) j) * rowB gms (ix2 (0 : Fin 1) j) = _
  rw [rowB_apply]

theorem sdR_apply (d : FVec Ideal TN .f32) (u : Fin 1) (j : Fin 256) :
    sdR d (ix2 u j) = Ideal.sqrt (Ideal.div (0 + ∑ k : Fin 50000, d (ix2 k j) * d (ix2 k j)) ((50000 : ℝ) : EReal)
      + Ideal.ofBits .f32 0x3727C5AC#32) := by
  show Ideal.sqrt (meanR (mulf (F := Ideal) d d) (ix2 u j) + splatR _ (ix2 u j)) = _
  rw [meanR_apply, splatR_apply]
  rfl

theorem normR_apply (y : FVec Ideal TN .f32) (gw gb gms : FVec Ideal TV .f32) (r : Fin 50000) (j : Fin 256) :
    normR y gw gb gms (ix2 r j)
      = Ideal.tanh (Ideal.div (cenR y gms (ix2 r j)) (sdR (cenR y gms) (ix2 (0 : Fin 1) j)) * gw (ix1 j) + gb (ix1 j)) := by
  show Ideal.tanh (Ideal.div (cenR y gms (ix2 r j)) (down (sdR (cenR y gms)) (ix2 r j)) * down (rowB gw) (ix2 r j)
    + down (rowB gb) (ix2 r j)) = _
  rw [down_apply, down_apply, down_apply, rowB_apply, rowB_apply]

/-- The biased entries read at an index. -/
theorem biased_apply (a : FVec Ideal TN .f32) (b1 : FVec Ideal TV .f32) (r : Fin 50000) (j : Fin 256) :
    addf (F := Ideal) a (down (rowB b1)) (ix2 r j) = a (ix2 r j) + b1 (ix1 j) := by
  show a (ix2 r j) + down (rowB b1) (ix2 r j) = _
  rw [down_apply, rowB_apply]

/-- The column mean of the biased entries read at a column. -/
theorem meanR_biased (a : FVec Ideal TN .f32) (b1 : FVec Ideal TV .f32) (u : Fin 1) (j : Fin 256) :
    meanR (addf (F := Ideal) a (down (rowB b1))) (ix2 u j)
      = Ideal.div (0 + ∑ r : Fin 50000, (a (ix2 r j) + b1 (ix1 j))) ((50000 : ℝ) : EReal) := by
  rw [meanR_apply]
  simp only [biased_apply]

end NormLaw

theorem norm_eq (a : FVec Ideal TN .f32) (b1 gw gb gms : FVec Ideal TV .f32)
    (ha : IsReal a) (hb1 : IsReal b1) (hgw : IsReal gw) (hgb : IsReal gb) (hms : IsReal gms) :
    norm a (shiftRow (colsum a) (rowOf b1) (rowOf gms)) (invStd (colsumsq a (shiftRow (colsum a) (rowOf b1) (rowOf gms)))) (rowOf gw) (rowOf gb)
      = normR (addf (F := Ideal) a (down (rowB b1))) gw gb gms := by
  obtain ⟨e, he, hε⟩ := NormLaw.ofBits_eps
  choose A hA using ha
  choose B hB using hb1
  choose W hW using hgw
  choose G hG using hgb
  choose M hM using hms
  obtain rfl : a = fun i => (A i : EReal) := funext hA
  obtain rfl : b1 = fun i => (B i : EReal) := funext hB
  obtain rfl : gw = fun i => (W i : EReal) := funext hW
  obtain rfl : gb = fun i => (G i : EReal) := funext hG
  obtain rfl : gms = fun i => (M i : EReal) := funext hM
  funext i
  obtain ⟨r, j, rfl⟩ : ∃ (r : Fin 50000) (j : Fin 256), i = ix2 r j := ⟨i 0, i 1, eq_ix2 i⟩
  rw [NormLaw.normR_apply]
  show Ideal.tanh ((((A (ix2 r j) : EReal) + shiftRow _ _ _ (ix2 (0 : Fin 1) j)) * invStd _ (ix2 (0 : Fin 1) j))
    * rowOf _ (ix2 (0 : Fin 1) j) + rowOf _ (ix2 (0 : Fin 1) j)) = _
  rw [NormLaw.rowOf_apply, NormLaw.rowOf_apply]
  refine NormLaw.scalar_law (n := 50000) 50000 (by norm_num) (by norm_num) (fun k => A (ix2 k j)) (B (ix1 j)) (M (ix1 j))
    (W (ix1 j)) (G (ix1 j)) e he r _ _ (meanR (addf (F := Ideal) (fun i => (A i : EReal)) (down (rowB fun i => (B i : EReal)))) (ix2 (0 : Fin 1) j)) _
    (fun k => NormLaw.cenR (addf (F := Ideal) (fun i => (A i : EReal)) (down (rowB fun i => (B i : EReal)))) (fun i => (M i : EReal)) (ix2 k j)) ?_ ?_ ?_ ?_ ?_
  · rw [NormLaw.shiftRow_apply, NormLaw.rowOf_apply, NormLaw.rowOf_apply]
    rfl
  · rw [NormLaw.invStd_apply, hε]
    rfl
  · exact NormLaw.meanR_biased _ _ _ j
  · intro k
    show NormLaw.cenR _ _ (ix2 k j) = _
    rw [NormLaw.cenR_apply, NormLaw.biased_apply]
  · rw [NormLaw.sdR_apply, hε]

end Cert.Gcn

end
-- ==== Proof.LibAndReduce.lean ====
/-
  An `and`-reduction of one-bit words that are all 1, from the initial word 1, is 1.

  The library reads a printed `jnp.all` in one direction (`Host.reduce_andi_eq_one`: the result is 1, so every
  word that reduces into it is 1).  This is the other direction, for a mask a program computes and a proof must
  show to be all ones: a left fold by `and` from 1 over words that are all 1 stays 1.  Stated for any shapes and
  axes.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl =>
    foldl_andi_of_all f l _ (andi_eq_one.2 ⟨h, hl a (List.mem_cons_self ..)⟩) (fun n hn => hl n (List.mem_cons_of_mem _ hn))

end IntOp

namespace Host

variable {s t u : Shape} {axes : List (Fin s.rank)}

/-- A `stablehlo.reduce` by `and` from the initial word 1 of an operand that is 1 everywhere is 1 at every index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit (fun i _ => hx i)

end Host

end Idealize.ShloMosaic
-- ==== Proof.SrcRange.lean ====
/-
  When every source word lies in −50000 ≤ s < 50000 as a signed 32-bit word, the wrapped index
  (s + 50000 where s is negative, s otherwise) lies in 0 … 49999.  So the range test is 1 on every edge,
  and the gather that fills rows read out of range is the plain gather.

  The one arithmetic fact is that the 32-bit sum s + 50000 does not wrap for −50000 ≤ s < 0: the signed value of
  a 32-bit sum is the balanced remainder of the sum of the signed values modulo 2^32, and a sum in 0 … 49999 is
  its own balanced remainder.
-/
import proofs.«404520_j32255204393746_1_alg».proof.Proof.Spec
import proofs.«404520_j32255204393746_1_alg».proof.Proof.LibAndReduce

noncomputable section

open Idealize.ShloMosaic Idealize.ShloMosaic.ValueIdx Cert.Gcn

namespace Cert.Gcn

/-- Every source word of the edge list is a node index or a negative index counting from the end. -/
def SrcInRange (e : IVec TE2 32) : Prop :=
  ∀ k : TE.Idx, (-50000 : Int) ≤ (srcOf e k).toInt ∧ (srcOf e k).toInt < 50000

/-- For −50000 ≤ v < 0 the 32-bit sum v + 50000 has the signed value v + 50000: no wrap-around. -/
theorem toInt_add_wrap (v : BitVec 32) (h1 : (-50000 : Int) ≤ v.toInt) (h2 : v.toInt < 0) :
    (v + 50000#32).toInt = v.toInt + 50000 := by
  have hc : (50000#32 : BitVec 32).toInt = 50000 := by decide
  rw [BitVec.toInt_add, hc]
  exact Int.bmod_eq_of_le (by omega) (by omega)

/-- One word: the wrapped index passes both halves of the range test. -/
theorem wrap_word (v : BitVec 32) (h1 : (-50000 : Int) ≤ v.toInt) (h2 : v.toInt < 50000) :
    IntOp.andi
      (IntOp.cmpi .sge (Scalar.select (IntOp.cmpi .slt v 0#32) (IntOp.addi v 50000#32) v) 0#32)
      (IntOp.cmpi .sle (Scalar.select (IntOp.cmpi .slt v 0#32) (IntOp.addi v 50000#32) v) 49999#32) = 1#1 := by
  have h0 : (0#32 : BitVec 32).toInt = 0 := by decide
  have h9 : (49999#32 : BitVec 32).toInt = 49999 := by decide
  rw [IntOp.andi_eq_one, IntOp.cmpi_sge, IntOp.cmpi_sle, h0, h9]
  by_cases hneg : v.toInt < 0
  · -- a negative word: the test is 1, the first branch is taken, and the sum does not wrap
    have hc : IntOp.cmpi .slt v 0#32 = 1#1 := IntOp.cmpi_slt.2 (by rw [h0]; exact hneg)
    rw [hc, select_one]
    show (0 : Int) ≤ (v + 50000#32).toInt ∧ (v + 50000#32).toInt ≤ 49999
    rw [toInt_add_wrap v h1 hneg]
    omega
  · -- a nonnegative word: the test is 0, the word itself is kept
    have hc : IntOp.cmpi .slt v 0#32 = 0#1 :=
      eq_zero_of_ne_one (fun h => hneg (by have := IntOp.cmpi_slt.1 h; rwa [h0] at this))
    rw [hc, select_zero]
    omega

/-- The wrapped index of every edge passes both halves of the range test. -/
theorem wrapIdx_range (s : IVec TE 32)
    (hs : ∀ k : TE.Idx, (-50000 : Int) ≤ (s k).toInt ∧ (s k).toInt < 50000) (k : TE.Idx) :
    IntOp.andi (IntOp.cmpi .sge (wrapIdx s k) 0#32) (IntOp.cmpi .sle (wrapIdx s k) 49999#32) = 1#1 :=
  wrap_word (s k) (hs k).1 (hs k).2

/-- The range test is 1 on every edge: the and-reduction over the length-1 axis of a column of ones. -/
theorem inRangeMask_eq_one (s : IVec TE 32)
    (hs : ∀ k : TE.Idx, (-50000 : Int) ≤ (s k).toInt ∧ (s k).toInt < 50000) (k : TE.Idx) :
    inRangeMask s k = 1#1 := by
  unfold inRangeMask
  refine Host.reduce_andi_of_all _ _ red_Ec_E h0 rfl (fun i => ?_) k
  -- entry i of the column reads the wrapped index of one edge; the bounds are the constants 0 and 49999
  exact wrapIdx_range s hs _

/-- A broadcast of a mask that is 1 everywhere is 1 everywhere: each entry reads some entry of the mask. -/
theorem broadcast_all_one {s t : Shape} (dims : Fin s.rank → Fin t.rank) (hb : s.BroadcastsInDim t dims)
    (m : IVec s 1) (hm : ∀ k, m k = 1#1) (j : t.Idx) : broadcastInDim t dims hb m j = 1#1 :=
  hm _

/-- With every source word in range, the filled gather is the plain gather. -/
theorem takeFill_eq (h : FVec Ideal TN .f32) (s : IVec TE 32)
    (hs : ∀ k : TE.Idx, (-50000 : Int) ≤ (s k).toInt ∧ (s k).toInt < 50000) :
    takeFill h s = gatherRows h s := by
  funext j
  unfold takeFill
  -- the selecting mask is the range test repeated along the rows, so it is 1 at every entry
  rw [select_apply, broadcast_all_one _ bc_E_M (inRangeMask s) (inRangeMask_eq_one s hs) j, select_one]

end Cert.Gcn

end
-- ==== Proof.LayerFacts.lean ====
/-
  Three facts about one layer of the graph convolution, over the extended reals.

  The host's contraction of the node features with the layer's matrix is the plain row-by-column sum; a layer's
  aggregate (gather the product's rows at the sources, add them into the targets, from zeros) takes real values
  when the features and the matrix do; adding a bias row and taking tanh reads the same in its two spellings.
-/
import proofs.«404520_j32255204393746_1_alg».proof.Proof.Spec
import proofs.«404520_j32255204393746_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx

/-! ## The contraction is the plain sum -/

/-- The host's contraction of a [50000, 256] array with a [256, 256] array, read at (p, q), is the sum over k
    of x(p, k) · w(k, q): the contraction's own sum, carried along the bijection of its one axis with k < 256. -/
theorem dot_eq_lin (x : FVec Ideal TN .f32) (w : FVec Ideal TD .f32) :
    Host.dotGeneral (F := Ideal) dotD none x w = lin x w := by
  funext i
  obtain ⟨p, q, rfl⟩ : ∃ (p : Fin 50000) (q : Fin 256), i = ix2 p q := ⟨i 0, i 1, eq_ix2 i⟩
  refine (Ideal.dotGeneral_apply dotD none .single x w (ix2 p q)).trans ?_
  exact PlainDot.sum_eq dotD rfl rfl rfl rfl rfl rfl x w p q

/-! ## A layer's aggregate is real-valued -/

/-- A finite sum of reals is a real. -/
theorem isReal_sum {ι : Type} (S : Finset ι) (f : ι → EReal) (h : ∀ j ∈ S, ∃ r : ℝ, f j = (r : EReal)) :
    ∃ r : ℝ, ∑ j ∈ S, f j = (r : EReal) := by
  classical
  induction S using Finset.induction_on with
  | empty => exact ⟨0, by rw [Finset.sum_empty, EReal.coe_zero]⟩
  | insert a S ha ih =>
    obtain ⟨r1, h1⟩ := h a (Finset.mem_insert_self a S)
    obtain ⟨r2, h2⟩ := ih (fun j hj => h j (Finset.mem_insert_of_mem hj))
    exact ⟨r1 + r2, by rw [Finset.sum_insert ha, h1, h2, EReal.coe_add]⟩

/-- An entry of the product of real features with a real matrix is a finite sum of products of reals. -/
theorem lin_isReal (x : FVec Ideal TN .f32) (w : FVec Ideal TD .f32)
    (hx : ∀ i, ∃ r : ℝ, x i = (r : EReal)) (hw : ∀ i, ∃ r : ℝ, w i = (r : EReal)) :
    ∀ i, ∃ r : ℝ, lin x w i = (r : EReal) := by
  intro i
  refine isReal_sum Finset.univ (fun k : Fin 256 => x (ix2 (i 0) k) * w (ix2 k (i 1))) (fun k _ => ?_)
  obtain ⟨r1, h1⟩ := hx (ix2 (i 0) k)
  obtain ⟨r2, h2⟩ := hw (ix2 k (i 1))
  exact ⟨r1 * r2, by rw [h1, h2, EReal.coe_mul]⟩

/-- Every gathered entry is an entry of the product, so real; the aggregate at a node is zero plus a finite sum of
    gathered entries, so real. -/
theorem aggregate_isReal (x : FVec Ideal TN .f32) (w : FVec Ideal TD .f32) (s t : IVec TE 32)
    (hx : ∀ i, ∃ r : ℝ, x i = (r : EReal)) (hw : ∀ i, ∃ r : ℝ, w i = (r : EReal)) :
    ∀ i, ∃ r : ℝ, scatterRows t (gatherRows (lin x w) s) i = (r : EReal) := by
  intro i
  have key : ∀ S : Finset TM.Idx, ∃ r : ℝ, (0 : EReal) + ∑ j ∈ S, gatherRows (lin x w) s j = (r : EReal) := by
    intro S
    obtain ⟨r, hr⟩ := isReal_sum S (gatherRows (lin x w) s) (fun j _ => lin_isReal x w hx hw _)
    exact ⟨r, by rw [zero_add, hr]⟩
  show ∃ r : ℝ, Ideal.ofBits .f32 0x00000000#32 + ∑ j ∈ _, gatherRows (lin x w) s j = (r : EReal)
  rw [Ideal.ofBits_zero_f32]
  exact key _

/-! ## The bias row in its two spellings -/

/-- A length-D vector reshaped to a 1×D row reads, at (0, j), the vector at j. -/
theorem rowOf_apply (b : FVec Ideal TV .f32) (j : Fin 256) : rowOf b (ix2 (0 : Fin 1) j) = b (ix1 j) :=
  shapeCast_a_1a_apply b casts_V_R 0 j

/-- A length-D vector broadcast along a new leading axis reads, at (0, j), the vector at j. -/
theorem rowB_apply (b : FVec Ideal TV .f32) (j : Fin 256) : rowB b (ix2 (0 : Fin 1) j) = b (ix1 j) :=
  broadcastInDim_apply _ bc_V_R b (ix2 (0 : Fin 1) j) (ix1 j) (fun a => by
    match a with
    | ⟨0, _⟩ => rfl)

/-- A 1×D row repeated down the nodes reads, at (p, q), the row at (0, q). -/
theorem down_apply (r : FVec Ideal TR .f32) (p : Fin 50000) (q : Fin 256) :
    down r (ix2 p q) = r (ix2 (0 : Fin 1) q) :=
  broadcastInDim_apply _ bc_R_N r (ix2 p q) (ix2 (0 : Fin 1) q) (fun a => by
    match a with
    | ⟨0, _⟩ => rfl
    | ⟨1, _⟩ => rfl)

/-- Shift by the bias row, then tanh: the reshaped row read at (0, q) and the broadcast row repeated down the
    nodes read at (p, q) are both the bias at q. -/
theorem biasTanh_eq (a : FVec Ideal TN .f32) (b : FVec Ideal TV .f32) :
    biasTanh a (rowOf b) = Host.tanh (F := Ideal) (addf (F := Ideal) a (down (rowB b))) := by
  funext i
  obtain ⟨p, q, rfl⟩ : ∃ (p : Fin 50000) (q : Fin 256), i = ix2 p q := ⟨i 0, i 1, eq_ix2 i⟩
  show Ideal.tanh (a (ix2 p q) + rowOf b (ix2 (0 : Fin 1) q)) = Ideal.tanh (a (ix2 p q) + down (rowB b) (ix2 p q))
  exact congrArg (fun z => Ideal.tanh (a (ix2 p q) + z))
    ((rowOf_apply b q).trans ((rowB_apply b q).symm.trans (down_apply (rowB b) p q).symm))

end Cert.Gcn

end
-- ==== Proof.Bridge.lean ====
/-
  The two programs compute one function when every source index names a node and the float inputs are real numbers.

  Three things join the kernel's composition to the reference's.  The filled gather is the plain gather, because
  the range test passes on every edge.  The row-block matrix product is the host's contraction, both being the
  sum over k of x(r, k) · w(k, j).  And the kernel's folded normalisation (one shift row, a reciprocal square
  root) is the reference's (subtract the scaled mean, divide by the square root) on real data: the first layer's
  aggregate is a finite sum of products of reals, hence real.  The second layer repeats the first's operations on
  equal data, and adding the bias row before tanh is the same in both spellings.
-/
import proofs.«404520_j32255204393746_1_alg».proof.Proof.Spec
import proofs.«404520_j32255204393746_1_alg».proof.Proof.NormLaw
import proofs.«404520_j32255204393746_1_alg».proof.Proof.SrcRange
import proofs.«404520_j32255204393746_1_alg».proof.Proof.LayerFacts

noncomputable section

namespace Cert.Gcn

open Idealize.ShloMosaic Idealize.ShloMosaic.ValueIdx

/-- With the sources in range a layer of the kernel is the reference's layer before its bias. -/
theorem layerK_eq (z : FVec Ideal TN .f32) (w : FVec Ideal TD .f32) (e : IVec TE2 32) (hs : SrcInRange e) :
    layerK z w e = scatterRows (tgtOf e) (gatherRows (Host.dotGeneral (F := Ideal) dotD none z w) (srcOf e)) := by
  unfold layerK
  rw [takeFill_eq _ _ hs, dot_eq_lin]

/-- The first layer's aggregate is real-valued. -/
theorem layerK_isReal (x : FVec Ideal TN .f32) (w : FVec Ideal TD .f32) (e : IVec TE2 32) (hs : SrcInRange e)
    (hx : IsReal x) (hw : IsReal w) : IsReal (layerK x w e) := by
  intro i
  unfold layerK
  rw [takeFill_eq _ _ hs]
  exact aggregate_isReal x w (srcOf e) (tgtOf e) hx hw i

theorem kerF_eq_refF (x : FVec Ideal TN .f32) (e : IVec TE2 32) (w1 : FVec Ideal TD .f32) (b1 : FVec Ideal TV .f32)
    (w2 : FVec Ideal TD .f32) (b2 gw gb gms : FVec Ideal TV .f32)
    (hx : IsReal x) (hw1 : IsReal w1) (hb1 : IsReal b1) (hgw : IsReal gw) (hgb : IsReal gb) (hms : IsReal gms)
    (hs : SrcInRange e) :
    kerF x e w1 b1 w2 b2 gw gb gms = refF x e w1 b1 w2 b2 gw gb gms := by
  show biasTanh (layerK (norm (layerK x w1 e) (shiftRow (colsum (layerK x w1 e)) (rowOf b1) (rowOf gms))
        (invStd (colsumsq (layerK x w1 e) (shiftRow (colsum (layerK x w1 e)) (rowOf b1) (rowOf gms)))) (rowOf gw) (rowOf gb)) w2 e) (rowOf b2)
      = Host.tanh (F := Ideal) (layerR (normR (layerR x w1 b1 e) gw gb gms) w2 b2 e)
  rw [norm_eq _ b1 gw gb gms (layerK_isReal x w1 e hs hx hw1) hb1 hgw hgb hms, biasTanh_eq, layerK_eq _ _ _ hs, layerK_eq _ _ _ hs]
  rfl

end Cert.Gcn

end
-- ==== Proof.PreFacts.lean ====
/-
  The precondition, decoded.

  The printed predicate is a conjunction of nine all-reductions, each a scalar one-bit word: for eight of the
  arguments "every entry has absolute value below +∞", and last "every source word of the edge list is
  ≥ −50000 and < 50000".  The predicate is 1, so each conjunct is 1, so each all-reduction's operand is 1 at every
  index.  An extended real whose absolute value max x (−x) is below +∞ is neither +∞ nor −∞: it is a real.
  The pattern 0x7F800000 is +∞, and 4294917296 is −50000 as a signed word.
-/
import proofs.«404520_j32255204393746_1_alg».proof.Pre_finite_inputs
import proofs.«404520_j32255204393746_1_alg».proof.Proof.Gen.Pre_finite_inputs
import proofs.«404520_j32255204393746_1_alg».proof.Proof.Spec
import proofs.«404520_j32255204393746_1_alg».proof.Proof.SrcRange
import Idealize.ShloMosaic.Lib.ReduceAll

noncomputable section

open Idealize.ShloMosaic Idealize.ShloMosaic.ValueIdx Cert.Gcn

namespace Cert.Gcn

/-- The rank-0 shape has one index. -/
instance subsingleton_T0 : Subsingleton T0.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  -- the comparison word is the truth value of max x (−x) < +∞; were that false the word would be 0
  have h2 : BitVec.ofBool (decide (max x (-x) < (⊤ : EReal))) = 1#1 := h
  have h' : max x (-x) < ⊤ := by
    by_contra hn
    rw [decide_eq_false hn] at h2
    exact absurd h2 (by decide)
  induction x using EReal.rec with
  | bot => simp at h'
  | coe r => exact ⟨r, rfl⟩
  | top => simp at h'

/-- One finiteness conjunct: the all-reduction of |v| < +∞ is 1, so every entry of v is a real. -/
theorem real_of_all {s : Shape} {axes : List (Fin s.rank)} (v : FVec Ideal s .f32)
    (hb : T0.BroadcastsInDim s (![] : Fin 0 → Fin s.rank)) (hr : s.ReducesTo axes T0) (hu : 0 < T0.numel)
    (h : Host.reduce IntOp.andi
        (cmpf .olt (Host.absf v) (broadcastInDim s ![] hb (constant (F := Ideal) T0 .f32 0x7F800000#32)))
        (constantI T0 1 1#1) hr hu ix0 = 1#1) (i : s.Idx) : ∃ r : ℝ, v i = (r : EReal) :=
  real_of_abs_lt_inf (v i) (Host.reduce_andi_all _ _ hr hu ix0 h i)

/-- The pattern 4294917296 is −50000 as a signed word. -/
theorem toInt_neg50000 : (4294917296#32 : BitVec 32).toInt = -50000 := by decide

/-- The last conjunct: the all-reduction of (s ≥ −50000 and s < 50000) is 1, so every word of s is in that range. -/
theorem range_of_all (s : IVec TE 32) (hb : T0.BroadcastsInDim TE (![] : Fin 0 → Fin TE.rank))
    (hr : TE.ReducesTo [0] T0) (hu : 0 < T0.numel)
    (h : Host.reduce IntOp.andi
        (andi (cmpi .sge s (broadcastInDim TE ![] hb (constantI T0 32 4294917296#32)))
          (cmpi .slt s (broadcastInDim TE ![] hb (constantI T0 32 50000#32))))
        (constantI T0 1 1#1) hr hu ix0 = 1#1) (k : TE.Idx) :
    (-50000 : Int) ≤ (s k).toInt ∧ (s k).toInt < 50000 := by
  have hk : IntOp.andi (IntOp.cmpi .sge (s k) 4294917296#32) (IntOp.cmpi .slt (s k) 50000#32) = 1#1 :=
    Host.reduce_andi_all _ _ hr hu ix0 h k
  obtain ⟨h1, h2⟩ := IntOp.andi_eq_one.1 hk
  have h1' := IntOp.cmpi_sge.1 h1
  have h2' := IntOp.cmpi_slt.1 h2
  have hc : (50000#32 : BitVec 32).toInt = 50000 := by decide
  rw [toInt_neg50000] at h1'
  rw [hc] at h2'
  exact ⟨h1', h2'⟩

/-- The precondition gives: the entries of x, w1, b1, gw, gb, gms are reals, and every source word is in range. -/
theorem of_pre (x : FVec Ideal TN .f32) (e : IVec TE2 32) (w1 : FVec Ideal TD .f32) (b1 : FVec Ideal TV .f32)
    (w2 : FVec Ideal TD .f32) (b2 gw gb gms : FVec Ideal TV .f32)
    (h : Cert.Pre_finite_inputs.fn (F := Ideal) x e w1 b1 w2 b2 gw gb gms = (fun _ => 1#1)) :
    (∀ i, ∃ r : ℝ, x i = (r : EReal)) ∧ (∀ i, ∃ r : ℝ, w1 i = (r : EReal)) ∧ (∀ i, ∃ r : ℝ, b1 i = (r : EReal)) ∧
    (∀ i, ∃ r : ℝ, gw i = (r : EReal)) ∧ (∀ i, ∃ r : ℝ, gb i = (r : EReal)) ∧ (∀ i, ∃ r : ℝ, gms i = (r : EReal)) ∧
    SrcInRange e := by
  have h1 := congrFun h ix0
  unfold Cert.Pre_finite_inputs.fn Cert.Pre_finite_inputs.fn_part1 Cert.Pre_finite_inputs.fn_part2 at h1
  dsimp only at h1
  -- the conjunction is nested to the left: peel the conjuncts off from the last to the first
  obtain ⟨h38, h48⟩ := IntOp.andi_eq_one.1 h1
  obtain ⟨h33, h37⟩ := IntOp.andi_eq_one.1 h38
  obtain ⟨h28, h32⟩ := IntOp.andi_eq_one.1 h33
  obtain ⟨h23, h27⟩ := IntOp.andi_eq_one.1 h28
  obtain ⟨h18, _⟩ := IntOp.andi_eq_one.1 h23
  obtain ⟨h13, _⟩ := IntOp.andi_eq_one.1 h18
  obtain ⟨h8, h12⟩ := IntOp.andi_eq_one.1 h13
  obtain ⟨h3, h7⟩ := IntOp.andi_eq_one.1 h8
  refine ⟨real_of_all x _ _ _ h3, real_of_all w1 _ _ _ h7, real_of_all b1 _ _ _ h12, real_of_all gw _ _ _ h27,
    real_of_all gb _ _ _ h32, real_of_all gms _ _ _ h37, ?_⟩
  -- the sliced and reshaped row 0 of the edge list is the source-word vector
  exact range_of_all (srcOf e) _ _ _ h48

end Cert.Gcn

end
-- ==== Proof.lean ====
/-
  A two-layer graph convolution with a column normalisation between the layers: the kernel (six pipelined
  regions — two row-block matrix products, the column sums, the column sums of squares, the normalise-scale-shift-tanh
  pass, the bias-tanh pass — among host gathers and scatter-adds) against the plain array program.

  The claim holds where every source index of the edge list names a node (from −N to N − 1, a negative index
  counting from the end): there the kernel's gather, which fills a row read out of range, is the plain gather.
  The kernel's run ends with the result at the composition kerF of its arguments (the launch over the thirteen
  segments read at the result buffer, each region's output array as a whole-array function of its inputs, the host
  stretches read where they write and carried where they do not); the reference's run ends at refF; and
  kerF = refF on real data with sources in range: the matrix products are one sum, the folded shift row and
  reciprocal square root are the reference's centring and division by the square root, sums regroup freely.
  The frames of the two kernel programs are the launch's; the reference's frame is its run with the result dropped.
  The idealisation rewrote nothing, so there is nothing to preserve.
-/
import proofs.«404520_j32255204393746_1_alg».proof.Defs
import proofs.«404520_j32255204393746_1_alg».proof.Proof.Gen.Kernel
import proofs.«404520_j32255204393746_1_alg».proof.Proof.Gen.Kernel.Skeleton
import proofs.«404520_j32255204393746_1_alg».proof.Proof.Gen.Kernel.Launch
import proofs.«404520_j32255204393746_1_alg».proof.Proof.Gen.Kernel.Points
import proofs.«404520_j32255204393746_1_alg».proof.Proof.Gen.Kernel.Frame
import proofs.«404520_j32255204393746_1_alg».proof.Proof.Gen.KernelIdeal
import proofs.«404520_j32255204393746_1_alg».proof.Proof.Gen.KernelIdeal.Skeleton
import proofs.«404520_j32255204393746_1_alg».proof.Proof.Gen.KernelIdeal.Launch
import proofs.«404520_j32255204393746_1_alg».proof.Proof.Gen.KernelIdeal.Points
import proofs.«404520_j32255204393746_1_alg».proof.Proof.Gen.KernelIdeal.Frame
import proofs.«404520_j32255204393746_1_alg».proof.Proof.Gen.ReferenceIdeal
import proofs.«404520_j32255204393746_1_alg».proof.Proof.Gen.ReferenceIdeal.Run
import proofs.«404520_j32255204393746_1_alg».proof.Proof.Gen.Pre_finite_inputs
import proofs.«404520_j32255204393746_1_alg».proof.Proof.KRun
import proofs.«404520_j32255204393746_1_alg».proof.Proof.Walk
import proofs.«404520_j32255204393746_1_alg».proof.Proof.Reg0
import proofs.«404520_j32255204393746_1_alg».proof.Proof.Reg1
import proofs.«404520_j32255204393746_1_alg».proof.Proof.Reg2
import proofs.«404520_j32255204393746_1_alg».proof.Proof.Reg3
import proofs.«404520_j32255204393746_1_alg».proof.Proof.Reg4
import proofs.«404520_j32255204393746_1_alg».proof.Proof.Reg5
import proofs.«404520_j32255204393746_1_alg».proof.Proof.RefRun
import proofs.«404520_j32255204393746_1_alg».proof.Proof.Bridge
import proofs.«404520_j32255204393746_1_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the kernel's composition of the (agreeing) arguments: the kernel's by its walk through the
    valuations, the reference's because its own composition equals it under the precondition. -/
theorem algebraic : Cert.algebraic_KernelIdeal_ReferenceIdeal := by
  intro m ρ m' ρ' hpre hagree
  refine ⟨fun c => Cert.Gcn.kerF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.GcnWalk.result_eq m ρ
          (fun V c => Cert.KernelIdeal.GcnReg0.final0 V c) (fun V c => Cert.KernelIdeal.GcnReg1.final1 V c)
          (fun V c => Cert.KernelIdeal.GcnReg2.final2 V c) (fun V c => Cert.KernelIdeal.GcnReg3.final3 V c)
          (fun V c => Cert.KernelIdeal.GcnReg4.final4 V c) (fun V c => Cert.KernelIdeal.GcnReg5.final5 V c) c), (h c).2⟩)
      (Cert.KernelIdeal.GcnRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.GcnRef.res_eq_ideal m' c, a0, a1, a2, a3, a4, a5, a6, a7, a8]
    obtain ⟨hx, hw1, hb1, hgw, hgb, hms, hs⟩ := Cert.Gcn.of_pre _ _ _ _ _ _ _ _ _ (hpre c)
    exact (Cert.Gcn.kerF_eq_refF _ _ _ _ _ _ _ _ _ hx hw1 hb1 hgw hgb hms hs).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
